-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S32 .f32) (main_arg6 : FVec F S32x2 .f32) (main_arg7 : FVec F S2 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x2 .f32 := Host.absf main_arg6
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x512 .f32) (main_arg1 : IVec S2x1600000 32) (main_arg2 : FVec F S512x128 .f32) (main_arg3 : FVec F S128 .f32) (main_arg4 : FVec F S128x32 .f32) (main_arg5 : FVec F S32 .f32) (main_arg6 : FVec F S32x2 .f32) (main_arg7 : FVec F S2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_arg6 main_arg7 main_v13 main_v16
-- ==== Kernel.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S2000x512 : Shape := ⟨2, ![2000, 512]⟩
abbrev S2000x128 : Shape := ⟨2, ![2000, 128]⟩
abbrev S1650000x128 : Shape := ⟨2, ![1650000, 128]⟩
abbrev S1x128 : Shape := ⟨2, ![1, 128]⟩
abbrev S50000x32 : Shape := ⟨2, ![50000, 32]⟩
abbrev S5000x128 : Shape := ⟨2, ![5000, 128]⟩
abbrev S5000x32 : Shape := ⟨2, ![5000, 32]⟩
abbrev S1650000x32 : Shape := ⟨2, ![1650000, 32]⟩
abbrev S1x32 : Shape := ⟨2, ![1, 32]⟩
abbrev S50000x2 : Shape := ⟨2, ![50000, 2]⟩
abbrev S5000x2 : Shape := ⟨2, ![5000, 2]⟩
abbrev S1x2 : Shape := ⟨2, ![1, 2]⟩
abbrev S5000 : Shape := ⟨1, ![5000]⟩
abbrev S5000x1 : Shape := ⟨2, ![5000, 1]⟩

abbrev nBuf : Space → Nat
  | .hbm => 104
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S50000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .i1⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x32, .f32⟩
  | .hbm, ⟨77, _⟩ => ⟨S_, .i32⟩
  | .hbm, ⟨78, _⟩ => ⟨S1650000, .i32⟩
  | .hbm, ⟨79, _⟩ => ⟨S1650000, .i1⟩
  | .hbm, ⟨80, _⟩ => ⟨S_, .i32⟩
  | .hbm, ⟨81, _⟩ => ⟨S1650000, .i32⟩
  | .hbm, ⟨82, _⟩ => ⟨S1650000, .i32⟩
  | .hbm, ⟨83, _⟩ => ⟨S1650000, .i32⟩
  | .hbm, ⟨84, _⟩ => ⟨S1650000x1, .i32⟩
  | .hbm, ⟨85, _⟩ => ⟨S1650000x32, .f32⟩
  | .hbm, ⟨86, _⟩ => ⟨S1650000x1, .f32⟩
  | .hbm, ⟨87, _⟩ => ⟨S1650000x32, .f32⟩
  | .hbm, ⟨88, _⟩ => ⟨S1650000x32, .f32⟩
  | .hbm, ⟨89, _⟩ => ⟨S_, .f32⟩
  | .hbm, ⟨90, _⟩ => ⟨S50000x32, .f32⟩
  | .hbm, ⟨91, _⟩ => ⟨S1650000x1, .i32⟩
  | .hbm, ⟨92, _⟩ => ⟨S50000x32, .f32⟩
  | .hbm, ⟨93, _⟩ => ⟨S1x32, .f32⟩
  | .hbm, ⟨94, _⟩ => ⟨S50000x32, .f32⟩
  | .hbm, ⟨95, _⟩ => ⟨S50000x32, .f32⟩
  | .hbm, ⟨96, _⟩ => ⟨S_, .f32⟩
  | .hbm, ⟨97, _⟩ => ⟨S50000x32, .f32⟩
  | .hbm, ⟨98, _⟩ => ⟨S50000x32, .i1⟩
  | .hbm, ⟨99, _⟩ => ⟨S_, .f32⟩
  | .hbm, ⟨100, _⟩ => ⟨S50000x32, .f32⟩
  | .hbm, ⟨101, _⟩ => ⟨S50000x32, .f32⟩
  | .hbm, ⟨102, _⟩ => ⟨S50000x32, .f32⟩
  | .hbm, ⟨103, _⟩ => ⟨S50000x2, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S32x2, .f32⟩
  | .local _ .vmem, ⟨13, _⟩ => ⟨S2, .f32⟩
  | .local _ .vmem, ⟨14, _⟩ => ⟨S5000x2, .f32⟩
  | .local _ .vmem, ⟨15, _⟩ => ⟨S5000x2, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S5000x32_S5000x32 : S5000x32.ShapeCasts S5000x32
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x512_S512x128_S2000x128_1_0_0_1_n_n_wf : DotDims.WF S2000x512 S512x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x32_S5000x32_1_0_0_1_n_n_wf : DotDims.WF S5000x128 S128x32 S5000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S5000x32_S32x2_S5000x2_1_0_0_1_n_n_wf : DotDims.WF S5000x32 S32x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x2.size a ≤ S32x2.size a
  hwx2_1 : ∀ i : grid2.Coords, EltTy.bits .f32 = 32 ∨ (Rect.block (s := S32x2) S32x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2.size a ≤ S2.size a
  hwx2_2 : ∀ i : grid2.Coords, EltTy.bits .f32 = 32 ∨ (Rect.block (s := S2) S2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S50000x2.size a
  hwx2_3 : ∀ i : grid2.Coords, EltTy.bits .f32 = 32 ∨ (Rect.block (s := S50000x2) S5000x2.size (cc2_transform_3 i) (hinb2_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v74) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x32 : Shape := ⟨2, ![50000, 32]⟩
abbrev S1650000x32 : Shape := ⟨2, ![1650000, 32]⟩
abbrev S1x32 : Shape := ⟨2, ![1, 32]⟩
abbrev S50000x2 : Shape := ⟨2, ![50000, 2]⟩
abbrev S1x2 : Shape := ⟨2, ![1, 2]⟩
abbrev S50000x1 : Shape := ⟨2, ![50000, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S50000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .i1⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x32, .f32⟩
  | .hbm, ⟨77, _⟩ => ⟨S_, .i32⟩
  | .hbm, ⟨78, _⟩ => ⟨S1650000, .i32⟩
  | .hbm, ⟨79, _⟩ => ⟨S1650000, .i1⟩
  | .hbm, ⟨80, _⟩ => ⟨S_, .i32⟩
  | .hbm, ⟨81, _⟩ => ⟨S1650000, .i32⟩
  | .hbm, ⟨82, _⟩ => ⟨S1650000, .i32⟩
  | .hbm, ⟨83, _⟩ => ⟨S1650000, .i32⟩
  | .hbm, ⟨84, _⟩ => ⟨S1650000x1, .i32⟩
  | .hbm, ⟨85, _⟩ => ⟨S1650000x32, .f32⟩
  | .hbm, ⟨86, _⟩ => ⟨S1650000x1, .f32⟩
  | .hbm, ⟨87, _⟩ => ⟨S1650000x32, .f32⟩
  | .hbm, ⟨88, _⟩ => ⟨S1650000x32, .f32⟩
  | .hbm, ⟨89, _⟩ => ⟨S_, .f32⟩
  | .hbm, ⟨90, _⟩ => ⟨S50000x32, .f32⟩
  | .hbm, ⟨91, _⟩ => ⟨S1650000x1, .i32⟩
  | .hbm, ⟨92, _⟩ => ⟨S50000x32, .f32⟩
  | .hbm, ⟨93, _⟩ => ⟨S1x32, .f32⟩
  | .hbm, ⟨94, _⟩ => ⟨S50000x32, .f32⟩
  | .hbm, ⟨95, _⟩ => ⟨S50000x32, .f32⟩
  | .hbm, ⟨96, _⟩ => ⟨S_, .f32⟩
  | .hbm, ⟨97, _⟩ => ⟨S50000x32, .f32⟩
  | .hbm, ⟨98, _⟩ => ⟨S50000x32, .i1⟩
  | .hbm, ⟨99, _⟩ => ⟨S_, .f32⟩
  | .hbm, ⟨100, _⟩ => ⟨S50000x32, .f32⟩
  | .hbm, ⟨101, _⟩ => ⟨S50000x32, .f32⟩
  | .hbm, ⟨102, _⟩ => ⟨S50000x32, .f32⟩
  | .hbm, ⟨103, _⟩ => ⟨S50000x2, .f32⟩
  | .hbm, ⟨104, _⟩ => ⟨S1x2, .f32⟩
  | .hbm, ⟨105, _⟩ => ⟨S50000x2, .f32⟩
  | .hbm, ⟨106, _⟩ => ⟨S50000x2, .f32⟩
  | .hbm, ⟨107, _⟩ => ⟨S_, .f32⟩
  | .hbm, ⟨108, _⟩ => ⟨S50000, .f32⟩
  | .hbm, ⟨109, _⟩ => ⟨S_, .f32⟩
  | .hbm, ⟨110, _⟩ => ⟨S50000, .f32⟩
  | .hbm, ⟨111, _⟩ => ⟨S50000, .f32⟩
  | .hbm, ⟨112, _⟩ => ⟨S50000x1, .f32⟩
  | .hbm, ⟨113, _⟩ => ⟨S50000x2, .f32⟩
  | .hbm, ⟨114, _⟩ => ⟨S50000x2, .f32⟩
  | .hbm, ⟨115, _⟩ => ⟨S50000x2, .f32⟩
  | .hbm, ⟨116, _⟩ => ⟨S_, .f32⟩
  | .hbm, ⟨117, _⟩ => ⟨S50000, .f32⟩
  | .hbm, ⟨118, _⟩ => ⟨S50000x1, .f32⟩
  | .hbm, ⟨119, _⟩ => ⟨S50000x2, .f32⟩
  | .hbm, ⟨120, _⟩ => ⟨S50000x2, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x512_S512x128_S50000x128_1_0_0_1_n_n_wf : DotDims.WF S50000x512 S512x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x32_S50000x32_1_0_0_1_n_n_wf : DotDims.WF S50000x128 S128x32 S50000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S50000x32_S32x2_S50000x2_1_0_0_1_n_n_wf : DotDims.WF S50000x32 S32x2 S50000x2 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S50000x32_S32x2_S50000x2_1_0_0_1_n_n : DotDims S50000x32 S32x2 S50000x2 where
  lhsContracting := [1]
  rhsContracting := [0]
  lhsNonContracting := [0]
  rhsNonContracting := [1]
  lhsBatch := []
  rhsBatch := []
  wf := dot_S50000x32_S32x2_S50000x2_1_0_0_1_n_n_wf

class Facts : Prop extends Facts₀ where

variable [Facts]
-- ==== Proof.KernelStretches.lean ====
/-
  The host stretches of the kernel's program, each read as the reference's stage functions. From any buffer contents W
  in which the buffers a stretch reads hold the reference's stages of the arguments, the buffers it writes hold the next
  stages: both programs apply the same operations (edge lists with self loops, in-degrees and their inverse square roots,
  edge weights; then per layer the gather of the dense product along the edges, the scaling, the scatter-add over the
  targets, the bias, and the leaky rectifier).
-/
import proofs.«145629_j10050223473071_1_alg».proof.Proof.Gen.KernelIdeal.Launch
import proofs.«145629_j10050223473071_1_alg».proof.Proof.RefRead
import Idealize.ShloMosaic.Lib.StableHlo.Run

set_option maxRecDepth 16384

noncomputable section

namespace Cert.KernelIdeal.Stretches

open Cert.KernelIdeal Cert.KernelIdeal.Gen Idealize.ShloMosaic Idealize.ShloMosaic.StableHlo Cert.ReferenceIdeal.ReadP

variable {F : FTy → Type} [FloatOps F]
variable (W : Valuation τ sig (Elt F))

/-! ## Before the first product: the graph's edge lists, degrees and edge weights -/

/-- Source nodes of the edges, self loops appended. -/
theorem pre_v3 : after hostOps0 W (Proc.devRef .tc main_v3) = val_main_v3 (F := F) (W (Proc.devRef .tc main_arg1)) := by
  after_results_simp <;> rfl
/-- Target nodes of the edges, self loops appended. -/
theorem pre_v7 : after hostOps0 W (Proc.devRef .tc main_v7) = val_main_v7 (F := F) (W (Proc.devRef .tc main_arg1)) := by
  after_results_simp <;> rfl
/-- Which nodes have positive in-degree. -/
theorem pre_v13 : after hostOps0 W (Proc.devRef .tc main_v13) = val_main_v13 (F := F) (W (Proc.devRef .tc main_arg1)) := by
  after_results_simp <;> rfl
/-- The in-degrees' inverse square roots. -/
theorem pre_v14 : after hostOps0 W (Proc.devRef .tc main_v14) = val_main_v14 (F := F) (W (Proc.devRef .tc main_arg1)) := by
  after_results_simp <;> rfl
/-- The zero that replaces the inverse square root of a zero degree. -/
theorem pre_cst_2 : after hostOps0 W (Proc.devRef .tc main_cst_2) = val_main_cst_2 (F := F) := by
  after_results_simp <;> rfl

/-- The inverse square roots, with zero where the degree is zero. -/
theorem norm_v15 (x1 : (⟨Cert.ReferenceIdeal.S2x1600000, .i32⟩ : BufTy).Contents (Elt F))
    (h13 : W (Proc.devRef .tc main_v13) = val_main_v13 (F := F) x1) (h14 : W (Proc.devRef .tc main_v14) = val_main_v14 (F := F) x1)
    (hc : W (Proc.devRef .tc main_cst_2) = val_main_cst_2 (F := F)) :
    after hostOps0_1 W (Proc.devRef .tc main_v15) = val_main_v15 (F := F) x1 := by
  after_results_simp
  rw [h13, h14, hc]
  rfl

/-- The edge weights: the product of the two ends' inverse square roots. -/
theorem weights_v30 (x1 : (⟨Cert.ReferenceIdeal.S2x1600000, .i32⟩ : BufTy).Contents (Elt F))
    (h15 : W (Proc.devRef .tc main_v15) = val_main_v15 (F := F) x1) (h3 : W (Proc.devRef .tc main_v3) = val_main_v3 (F := F) x1)
    (h7 : W (Proc.devRef .tc main_v7) = val_main_v7 (F := F) x1) :
    after hostOps0_2 W (Proc.devRef .tc main_v30) = val_main_v30 (F := F) x1 := by
  after_results_simp
  rw [h15, h3, h7]
  rfl

/-! ## Between the products: aggregation over the edges, bias, leaky rectifier -/

/-- The first layer's activations from its dense product. -/
theorem layer1_v52 (x0 : (⟨Cert.ReferenceIdeal.S50000x512, .f32⟩ : BufTy).Contents (Elt F)) (x1 : (⟨Cert.ReferenceIdeal.S2x1600000, .i32⟩ : BufTy).Contents (Elt F)) (x2 : (⟨Cert.ReferenceIdeal.S512x128, .f32⟩ : BufTy).Contents (Elt F)) (x3 : (⟨Cert.ReferenceIdeal.S128, .f32⟩ : BufTy).Contents (Elt F))
    (h31 : W (Proc.devRef .tc main_v31) = val_main_v31 (F := F) x0 x2) (h3 : W (Proc.devRef .tc main_v3) = val_main_v3 (F := F) x1)
    (h7 : W (Proc.devRef .tc main_v7) = val_main_v7 (F := F) x1) (h30 : W (Proc.devRef .tc main_v30) = val_main_v30 (F := F) x1)
    (hb : W (Proc.devRef .tc main_arg3) = x3) :
    after hostOps1_1 (after hostOps1 W) (Proc.devRef .tc main_v52) = val_main_v52 (F := F) x0 x1 x2 x3 := by
  after_results_simp
  rw [h31, h3, h7, h30, hb]
  rfl

/-- The second layer's activations from its dense product. -/
theorem layer2_v74 (x0 : (⟨Cert.ReferenceIdeal.S50000x512, .f32⟩ : BufTy).Contents (Elt F)) (x1 : (⟨Cert.ReferenceIdeal.S2x1600000, .i32⟩ : BufTy).Contents (Elt F)) (x2 : (⟨Cert.ReferenceIdeal.S512x128, .f32⟩ : BufTy).Contents (Elt F)) (x3 : (⟨Cert.ReferenceIdeal.S128, .f32⟩ : BufTy).Contents (Elt F))
    (x4 : (⟨Cert.ReferenceIdeal.S128x32, .f32⟩ : BufTy).Contents (Elt F)) (x5 : (⟨Cert.ReferenceIdeal.S32, .f32⟩ : BufTy).Contents (Elt F))
    (h53 : W (Proc.devRef .tc main_v53) = val_main_v53 (F := F) x0 x1 x2 x3 x4) (h3 : W (Proc.devRef .tc main_v3) = val_main_v3 (F := F) x1)
    (h7 : W (Proc.devRef .tc main_v7) = val_main_v7 (F := F) x1) (h30 : W (Proc.devRef .tc main_v30) = val_main_v30 (F := F) x1)
    (hb : W (Proc.devRef .tc main_arg5) = x5) :
    after hostOps2_1 (after hostOps2 W) (Proc.devRef .tc main_v74) = val_main_v74 (F := F) x0 x1 x2 x3 x4 x5 := by
  after_results_simp
  rw [h53, h3, h7, h30, hb]
  rfl

end Cert.KernelIdeal.Stretches

end
-- ==== Proof.MatmulBlock.lean ====
/-
  The two hidden layers' dense products, one block of rows at a time: at the extended reals the kernel's product of a
  block of rows with the whole weight matrix is, entry by entry, the plain sum over the contracted axis (the change to
  bf16 is the identity, the accumulator starts at zero).
-/
import proofs.«145629_j10050223473071_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.MatmulBlock

open Cert.KernelIdeal Cert.KernelIdeal.Gen Idealize.ShloMosaic Idealize.ShloMosaic.ValueIdx

/-! ## First layer

  The product's dimension numbers contract the left operand's axis 1 with the right operand's axis 0; the left
  operand's axis 0 and the right operand's axis 1 are the result's rows and columns. The four lemmas below read the
  two operand indices one coordinate at a time. -/

/-- The left operand's row is the result's row. -/
theorem lhs0_0 (i : S2000x128.Idx) (c : dot_S2000x512_S512x128_S2000x128_1_0_0_1_n_n.contr.Idx) :
    (dot_S2000x512_S512x128_S2000x128_1_0_0_1_n_n.lhsIdx i c 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- The left operand's column is the contraction position. -/
theorem lhs0_1 (i : S2000x128.Idx) (c : dot_S2000x512_S512x128_S2000x128_1_0_0_1_n_n.contr.Idx) :
    (dot_S2000x512_S512x128_S2000x128_1_0_0_1_n_n.lhsIdx i c 1).val = (c ⟨0, by decide⟩).val :=
  dot_S2000x512_S512x128_S2000x128_1_0_0_1_n_n.lhsIdx_val_of_single rfl i c
/-- The right operand's row is the contraction position. -/
theorem rhs0_0 (i : S2000x128.Idx) (c : dot_S2000x512_S512x128_S2000x128_1_0_0_1_n_n.contr.Idx) :
    (dot_S2000x512_S512x128_S2000x128_1_0_0_1_n_n.rhsIdx i c 0).val = (c ⟨0, by decide⟩).val :=
  dot_S2000x512_S512x128_S2000x128_1_0_0_1_n_n.rhsIdx_val_of_single rfl i c
/-- The right operand's column is the result's column. -/
theorem rhs0_1 (i : S2000x128.Idx) (c : dot_S2000x512_S512x128_S2000x128_1_0_0_1_n_n.contr.Idx) :
    (dot_S2000x512_S512x128_S2000x128_1_0_0_1_n_n.rhsIdx i c 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- First layer: a block of 2000 nodes' 512 features times the 512 × 128 weights. -/
theorem pay0_apply (x0 : Vec Ideal S2000x512 .f32) (x1 : Vec Ideal S512x128 .f32) (p : Fin 2000) (q : Fin 128) :
    k0_pay1 (F := Ideal) x0 x1 (ix2 p q) = ∑ k : Fin 512, x0 (ix2 p k) * x1 (ix2 k q) := by
  unfold k0_pay1
  simp only [matmul]
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx (ix2 p q) ((ValueIdx.contrEquiv1 dot_S2000x512_S512x128_S2000x128_1_0_0_1_n_n 512 rfl rfl).symm k) = ix2 p k := funext fun a => Fin.ext (by
    match a with
    | ⟨0, _⟩ => exact lhs0_0 _ _
    | ⟨1, _⟩ => exact (lhs0_1 _ _).trans hk)
  have er : dot_S2000x512_S512x128_S2000x128_1_0_0_1_n_n.rhsIdx (ix2 p q) ((ValueIdx.contrEquiv1 dot_S2000x512_S512x128_S2000x128_1_0_0_1_n_n 512 rfl rfl).symm k) = ix2 k q := funext fun a => Fin.ext (by
    match a with
    | ⟨0, _⟩ => exact (rhs0_0 _ _).trans hk
    | ⟨1, _⟩ => exact rhs0_1 _ _)
  rw [el, er, truncf_apply, truncf_apply]

/-! ## Second layer

  The product's dimension numbers contract the left operand's axis 1 with the right operand's axis 0; the left
  operand's axis 0 and the right operand's axis 1 are the result's rows and columns. The four lemmas below read the
  two operand indices one coordinate at a time. -/

/-- The left operand's row is the result's row. -/
theorem lhs1_0 (i : S5000x32.Idx) (c : dot_S5000x128_S128x32_S5000x32_1_0_0_1_n_n.contr.Idx) :
    (dot_S5000x128_S128x32_S5000x32_1_0_0_1_n_n.lhsIdx i c 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
/-- The left operand's column is the contraction position. -/
theorem lhs1_1 (i : S5000x32.Idx) (c : dot_S5000x128_S128x32_S5000x32_1_0_0_1_n_n.contr.Idx) :
    (dot_S5000x128_S128x32_S5000x32_1_0_0_1_n_n.lhsIdx i c 1).val = (c ⟨0, by decide⟩).val :=
  dot_S5000x128_S128x32_S5000x32_1_0_0_1_n_n.lhsIdx_val_of_single rfl i c
/-- The right operand's row is the contraction position. -/
theorem rhs1_0 (i : S5000x32.Idx) (c : dot_S5000x128_S128x32_S5000x32_1_0_0_1_n_n.contr.Idx) :
    (dot_S5000x128_S128x32_S5000x32_1_0_0_1_n_n.rhsIdx i c 0).val = (c ⟨0, by decide⟩).val :=
  dot_S5000x128_S128x32_S5000x32_1_0_0_1_n_n.rhsIdx_val_of_single rfl i c
/-- The right operand's column is the result's column. -/
theorem rhs1_1 (i : S5000x32.Idx) (c : dot_S5000x128_S128x32_S5000x32_1_0_0_1_n_n.contr.Idx) :
    (dot_S5000x128_S128x32_S5000x32_1_0_0_1_n_n.rhsIdx i c 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- Second layer: a block of 5000 nodes' 128 features times the 128 × 32 weights. -/
theorem pay1_apply (x0 : Vec Ideal S5000x128 .f32) (x1 : Vec Ideal S128x32 .f32) (p : Fin 5000) (q : Fin 32) :
    k1_pay1 (F := Ideal) x0 x1 (ix2 p q) = ∑ k : Fin 128, x0 (ix2 p k) * x1 (ix2 k q) := by
  unfold k1_pay1
  rw [shapeCast_self]
  simp only [matmul]
  rw [Ideal.matmul_constant_zero_apply, ← Equiv.sum_comp (ValueIdx.contrEquiv1 dot_S5000x128_S128x32_S5000x32_1_0_0_1_n_n 128 rfl rfl).symm]
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx (ix2 p q) ((ValueIdx.contrEquiv1 dot_S5000x128_S128x32_S5000x32_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x32_S5000x32_1_0_0_1_n_n.rhsIdx (ix2 p q) ((ValueIdx.contrEquiv1 dot_S5000x128_S128x32_S5000x32_1_0_0_1_n_n 128 rfl rfl).symm k) = ix2 k q := funext fun a => Fin.ext (by
    match a with
    | ⟨0, _⟩ => exact (rhs1_0 _ _).trans hk
    | ⟨1, _⟩ => exact rhs1_1 _ _)
  rw [el, er, truncf_apply, truncf_apply]

end Cert.KernelIdeal.MatmulBlock

end
-- ==== Proof.RowSoftmax.lean ====
/-
  One output row of the last layer, over the extended reals. A node's two logits are the affine image of its 32
  features; the row's softmax takes the largest logit (never below −∞), each logit's exponential of its distance to
  it, and divides by the sum of the two exponentials. Both programs compute exactly this per node: the kernel on a
  block of 5000 nodes, the reference on all 50000 at once.
-/
import Idealize.ShloMosaic.PureOps.Ideal
import Idealize.ShloMosaic.PureOps.Ideal.Laws

noncomputable section

open scoped BigOperators

namespace Cert.RowSoftmax

open Idealize.ShloMosaic

/-- The two logits of a node: features times the weight matrix's columns, plus the bias. -/
def logits (h : Fin 32 → EReal) (w : Fin 32 → Fin 2 → EReal) (b : Fin 2 → EReal) (q : Fin 2) : EReal :=
  (∑ k : Fin 32, h k * w k q) + b q

/-- The largest entry of a row, folded from −∞ and then compared with −∞ once more (as both programs do). -/
def rowMax (z : Fin 2 → EReal) : EReal :=
  max (Ideal.ofBits .f32 0xFF800000#32) ((Finset.univ : Finset (Fin 2)).fold max (Ideal.ofBits .f32 0xFF800000#32) z)

/-- An entry's exponential of its distance to the row's largest entry. -/
def rowExp (z : Fin 2 → EReal) (q : Fin 2) : EReal := Ideal.exp (z q - rowMax z)

/-- The row's softmax at an entry. -/
def softmax (z : Fin 2 → EReal) (q : Fin 2) : EReal := Ideal.div (rowExp z q) (∑ q' : Fin 2, rowExp z q')

/-- Rows that agree entry by entry have the same softmax. -/
theorem softmax_congr {z z' : Fin 2 → EReal} (h : ∀ q, z q = z' q) (q : Fin 2) : softmax z q = softmax z' q := by
  rw [show z = z' from funext h]

end Cert.RowSoftmax

end
-- ==== Proof.RefRows.lean ====
/-
  The reference's three dense layers read at a node: each hidden layer's product as the plain sum over the contracted
  axis, and the final result at node p, class q as the softmax of that node's two logits (RowSoftmax).
-/
import proofs.«145629_j10050223473071_1_alg».proof.Proof.RefRead
import proofs.«145629_j10050223473071_1_alg».proof.Proof.RowSoftmax
import Idealize.ShloMosaic.Lib.ValueIdx
import Idealize.ShloMosaic.Lib.Pipeline.Value
import Idealize.ShloMosaic.PureOps.Ideal.Laws

noncomputable section

open scoped BigOperators

namespace Cert.ReferenceIdeal.RefRows

open Cert.ReferenceIdeal Cert.ReferenceIdeal.ReadP Idealize.ShloMosaic Idealize.ShloMosaic.ValueIdx

/-! ### The operand indices of the three products, at row p and column q: row p of the left operand, column q of the right -/

theorem lidx_v31 (p : Fin 50000) (q : Fin 128) (k : Fin 512) : lidx_main_v31 (ix2 p q) k = ix2 p k :=
  funext fun a => Fin.ext (by match a with | ⟨0, _⟩ => rfl | ⟨1, _⟩ => rfl)

theorem ridx_v31 (p : Fin 50000) (q : Fin 128) (k : Fin 512) : ridx_main_v31 (ix2 p q) k = ix2 k q :=
  funext fun a => Fin.ext (by match a with | ⟨0, _⟩ => rfl | ⟨1, _⟩ => rfl)

theorem lidx_v53 (p : Fin 50000) (q : Fin 32) (k : Fin 128) : lidx_main_v53 (ix2 p q) k = ix2 p k :=
  funext fun a => Fin.ext (by match a with | ⟨0, _⟩ => rfl | ⟨1, _⟩ => rfl)

theorem ridx_v53 (p : Fin 50000) (q : Fin 32) (k : Fin 128) : ridx_main_v53 (ix2 p q) k = ix2 k q :=
  funext fun a => Fin.ext (by match a with | ⟨0, _⟩ => rfl | ⟨1, _⟩ => rfl)

theorem lidx_v75 (p : Fin 50000) (q : Fin 2) (k : Fin 32) : lidx_main_v75 (ix2 p q) k = ix2 p k :=
  funext fun a => Fin.ext (by match a with | ⟨0, _⟩ => rfl | ⟨1, _⟩ => rfl)

theorem ridx_v75 (p : Fin 50000) (q : Fin 2) (k : Fin 32) : ridx_main_v75 (ix2 p q) k = ix2 k q :=
  funext fun a => Fin.ext (by match a with | ⟨0, _⟩ => rfl | ⟨1, _⟩ => rfl)

/-- First layer's product at node p, feature q. -/
theorem v31_apply (x0 : (⟨S50000x512, .f32⟩ : BufTy).Contents (Elt Ideal)) (x2 : (⟨S512x128, .f32⟩ : BufTy).Contents (Elt Ideal)) (p : Fin 50000) (q : Fin 128) :
    val_main_v31 (F := Ideal) x0 x2 (ix2 p q) = ∑ k : Fin 512, x0 (ix2 p k) * x2 (ix2 k q) := by
  rw [val_main_v31_apply]
  refine Finset.sum_congr rfl fun k _ => ?_
  rw [lidx_v31 p q k, ridx_v31 p q k]

/-- Second layer's product at node p, feature q. -/
theorem v53_apply (x0 : (⟨S50000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x32, .f32⟩ : BufTy).Contents (Elt Ideal)) (p : Fin 50000) (q : Fin 32) :
    val_main_v53 (F := Ideal) x0 x1 x2 x3 x4 (ix2 p q) = ∑ k : Fin 128, val_main_v52 (F := Ideal) x0 x1 x2 x3 (ix2 p k) * x4 (ix2 k q) := by
  rw [val_main_v53_apply]
  refine Finset.sum_congr rfl fun k _ => ?_
  rw [lidx_v53 p q k, ridx_v53 p q k]

/-! ### The last layer at node p: logits, their maximum, the exponentials, their sum, the quotient -/

/-- The source index over node p with class k inserted on the reduced axis is (p, k). -/
theorem lift_ix (h : S50000x2.Reduces [1] S50000) (p : Fin 50000) (k : Fin 2) : h.lift (ix1 p) k = ix2 p k :=
  funext fun a => Fin.ext (by match a with | ⟨0, _⟩ => rfl | ⟨1, _⟩ => rfl)

section LastLayer

variable (x0 : (⟨S50000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x32, .f32⟩ : BufTy).Contents (Elt Ideal)) (x5 : (⟨S32, .f32⟩ : BufTy).Contents (Elt Ideal)) (x6 : (⟨S32x2, .f32⟩ : BufTy).Contents (Elt Ideal)) (x7 : (⟨S2, .f32⟩ : BufTy).Contents (Elt Ideal))

/-- The node's logit q: the last product at (p, q) plus the bias at q, which both broadcasts read at q alone. -/
theorem v78_apply (p : Fin 50000) (q : Fin 2) :
    val_main_v78 (F := Ideal) x0 x1 x2 x3 x4 x5 x6 x7 (ix2 p q)
      = Cert.RowSoftmax.logits (fun k => val_main_v74 (F := Ideal) x0 x1 x2 x3 x4 x5 (ix2 p k)) (fun k q' => x6 (ix2 k q')) (fun q' => x7 (ix1 q')) q := by
  rw [val_main_v78_apply, val_main_v75_apply, val_main_v77_apply, val_main_v76_apply]
  have e : idx_main_v76 (idx_main_v77 (ix2 p q)) = ix1 q := funext fun a => Fin.ext (by match a with | ⟨0, _⟩ => rfl)
  rw [e]
  unfold Cert.RowSoftmax.logits
  refine congrArg (· + x7 (ix1 q)) (Finset.sum_congr rfl fun k _ => ?_)
  rw [lidx_v75 p q k, ridx_v75 p q k]

/-- The reduction over the class axis at node p: the fold of max, from −∞, over the node's two logits. -/
theorem v79_apply (p : Fin 50000) :
    val_main_v79 (F := Ideal) x0 x1 x2 x3 x4 x5 x6 x7 (ix1 p)
      = (Finset.univ : Finset (Fin 2)).fold max (Ideal.ofBits .f32 0xFF800000#32) (fun k => val_main_v78 (F := Ideal) x0 x1 x2 x3 x4 x5 x6 x7 (ix2 p k)) := by
  unfold val_main_v79
  generalize val_main_v78 (F := Ideal) x0 x1 x2 x3 x4 x5 x6 x7 = y
  have h : S50000x2.Reduces [1] S50000 := by decide
  refine (Host.reduce_eq_fold_single (FloatOps.maximumf (F := Ideal) (φ := .f32)) y _ _ h _ (ix1 p)).trans ?_
  show (Finset.univ : Finset (Fin 2)).fold (FloatOps.maximumf (F := Ideal) (φ := .f32)) _ (fun k : Fin 2 => y (h.lift (ix1 p) k)) = _
  have e : (fun k : Fin 2 => y (h.lift (ix1 p) k)) = fun k : Fin 2 => y (ix2 p k) := funext fun k => congrArg y (lift_ix h p k)
  rw [e]
  rfl

/-- Compared with −∞ once more: the row's maximum. -/
theorem v81_apply (p : Fin 50000) :
    val_main_v81 (F := Ideal) x0 x1 x2 x3 x4 x5 x6 x7 (ix1 p) = Cert.RowSoftmax.rowMax (fun k => val_main_v78 (F := Ideal) x0 x1 x2 x3 x4 x5 x6 x7 (ix2 p k)) := by
  rw [val_main_v81_apply, val_main_v80_apply, v79_apply]
  rfl

/-- The maximum broadcast back over the classes. -/
theorem v83_apply (p : Fin 50000) (q : Fin 2) :
    val_main_v83 (F := Ideal) x0 x1 x2 x3 x4 x5 x6 x7 (ix2 p q) = Cert.RowSoftmax.rowMax (fun k => val_main_v78 (F := Ideal) x0 x1 x2 x3 x4 x5 x6 x7 (ix2 p k)) := by
  rw [val_main_v83_apply, val_main_v82_apply]
  have e : idx_main_v82 (idx_main_v83 (ix2 p q)) = ix1 p := funext fun a => Fin.ext (by match a with | ⟨0, _⟩ => rfl)
  rw [e, v81_apply]

/-- The exponential of logit q's distance to the maximum. -/
theorem v85_apply (p : Fin 50000) (q : Fin 2) :
    val_main_v85 (F := Ideal) x0 x1 x2 x3 x4 x5 x6 x7 (ix2 p q) = Cert.RowSoftmax.rowExp (fun k => val_main_v78 (F := Ideal) x0 x1 x2 x3 x4 x5 x6 x7 (ix2 p k)) q := by
  rw [val_main_v85_apply, val_main_v84_apply, v83_apply, Ideal.hostUnary_exp_def, Ideal.subf_def]
  rfl

/-- The sum of the node's two exponentials (the reduction starts from 0). -/
theorem v86_apply (p : Fin 50000) :
    val_main_v86 (F := Ideal) x0 x1 x2 x3 x4 x5 x6 x7 (ix1 p) = ∑ q' : Fin 2, Cert.RowSoftmax.rowExp (fun k => val_main_v78 (F := Ideal) x0 x1 x2 x3 x4 x5 x6 x7 (ix2 p k)) q' := by
  rw [val_main_v86_apply]
  show Ideal.ofBits .f32 0x00000000#32 + _ = _
  rw [Ideal.ofBits_zero_f32, zero_add]
  refine Finset.sum_congr rfl fun k _ => ?_
  have e : idx_main_v86 (ix1 p) k = ix2 p k := funext fun a => Fin.ext (by match a with | ⟨0, _⟩ => rfl | ⟨1, _⟩ => rfl)
  rw [e, v85_apply]

/-- The sum broadcast back over the classes. -/
theorem v88_apply (p : Fin 50000) (q : Fin 2) :
    val_main_v88 (F := Ideal) x0 x1 x2 x3 x4 x5 x6 x7 (ix2 p q) = ∑ q' : Fin 2, Cert.RowSoftmax.rowExp (fun k => val_main_v78 (F := Ideal) x0 x1 x2 x3 x4 x5 x6 x7 (ix2 p k)) q' := by
  rw [val_main_v88_apply, val_main_v87_apply]
  have e : idx_main_v87 (idx_main_v88 (ix2 p q)) = ix1 p := funext fun a => Fin.ext (by match a with | ⟨0, _⟩ => rfl)
  rw [e, v86_apply]

/-- The quotient of an exponential by the sum of both: the softmax of the node's two logits. -/
theorem v89_row (p : Fin 50000) (q : Fin 2) :
    val_main_v89 (F := Ideal) x0 x1 x2 x3 x4 x5 x6 x7 (ix2 p q) = Cert.RowSoftmax.softmax (fun k => val_main_v78 (F := Ideal) x0 x1 x2 x3 x4 x5 x6 x7 (ix2 p k)) q := by
  rw [val_main_v89_apply, v85_apply, v88_apply]
  rfl

end LastLayer

/-- The result at node p, class q. -/
theorem v89_apply (x0 : (⟨S50000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x32, .f32⟩ : BufTy).Contents (Elt Ideal)) (x5 : (⟨S32, .f32⟩ : BufTy).Contents (Elt Ideal)) (x6 : (⟨S32x2, .f32⟩ : BufTy).Contents (Elt Ideal)) (x7 : (⟨S2, .f32⟩ : BufTy).Contents (Elt Ideal)) (p : Fin 50000) (q : Fin 2) :
    val_main_v89 (F := Ideal) x0 x1 x2 x3 x4 x5 x6 x7 (ix2 p q)
      = Cert.RowSoftmax.softmax (Cert.RowSoftmax.logits (fun k => val_main_v74 (F := Ideal) x0 x1 x2 x3 x4 x5 (ix2 p k)) (fun k q' => x6 (ix2 k q')) (fun q' => x7 (ix1 q'))) q := by
  rw [v89_row]
  exact Cert.RowSoftmax.softmax_congr (fun q' => v78_apply x0 x1 x2 x3 x4 x5 x6 x7 p q') q

end Cert.ReferenceIdeal.RefRows

end
-- ==== Proof.Region0.lean ====
/-
  The first dense layer as a whole array. The pipeline runs its body at 25 points; point t loads rows 2000·t … 2000·t+1999 of
  the node features and the whole 512 × 128 weight matrix, and writes back the 2000 × 128 product as rows 2000·t … of the
  result. Every row of the 50000 × 128 result lies in exactly the block of point (row / 2000), and an entry of that block is
  the sum over the 512 features of feature times weight: the same sum the reference's product has at that row. So the
  result array after the region is the reference's first product of the arrays the region found.
-/
import proofs.«145629_j10050223473071_1_alg».proof.Proof.Gen.KernelIdeal.Frame
import proofs.«145629_j10050223473071_1_alg».proof.Proof.MatmulBlock
import proofs.«145629_j10050223473071_1_alg».proof.Proof.RefRows

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the feature rows and the result rows move with the point, every other block
    index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 2000·t + p of the array. -/
def arow (t : Fin cfg0.N) (p : Fin 2000) : Fin 50000 :=
  ⟨t.val * 2000 + p.val, by have ht : t.val < 25 := lt_of_lt_of_eq t.isLt N_0; have hp := p.isLt; omega⟩

/-- Point t's block of node features, and of weights, at their literal types. -/
abbrev xblk (c : Dev nD) (t : Fin cfg0.N) : Vec Ideal S2000x512 .f32 := iblk0 V c 0 t
abbrev wblk (c : Dev nD) (t : Fin cfg0.N) : Vec Ideal S512x128 .f32 := iblk0 V c 1 t

/-- The features' block holds the array's rows 2000·t …. -/
theorem read_x (c : Dev nD) (t : Fin cfg0.N) (p : Fin 2000) (k : Fin 512) :
    xblk V c t (ix2 p k) = V c main_arg0 (ix2 (arow t p) k) := by
  obtain ⟨e0, e1, -, -, -, -⟩ := idx_facts t
  show V c main_arg0 (((cfg0.win 0).blk t).view.emb (ix2 p k)) = V c main_arg0 (ix2 (arow t p) k)
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 512 + 1 * k.val = k.val; rw [e1]; omega

/-- The weights' block is the whole weight matrix. -/
theorem read_w (c : Dev nD) (t : Fin cfg0.N) (k : Fin 512) (q : Fin 128) :
    wblk V c t (ix2 k q) = V c main_arg2 (ix2 k q) := by
  obtain ⟨-, -, e2, e3, -, -⟩ := idx_facts t
  show V c main_arg2 (((cfg0.win 1).blk t).view.emb (ix2 k q)) = V c main_arg2 (ix2 k q)
  refine congrArg _ (funext fun a => Fin.ext ?_)
  match a with
  | ⟨0, _⟩ => show win0_1.index t (0 : Fin 2) * 512 + 1 * k.val = k.val; rw [e2]; omega
  | ⟨1, _⟩ => show win0_1.index t (1 : Fin 2) * 128 + 1 * q.val = q.val; rw [e3]; omega

/-- What point t writes back is its block of the reference's product of the arrays the region found. -/
theorem flushed_eq (c : Dev nD) (x0 : (⟨Cert.ReferenceIdeal.S50000x512, .f32⟩ : BufTy).Contents (Elt Ideal))
    (x2 : (⟨Cert.ReferenceIdeal.S512x128, .f32⟩ : BufTy).Contents (Elt Ideal))
    (h0 : V c main_arg0 = x0) (h2 : V c main_arg2 = x2) (t : Fin cfg0.N) :
    (dat0 V c).flushed 2 t
      = ((cfg0.win 2).blk t).view.read (Elt Ideal) (Cert.ReferenceIdeal.ReadP.val_main_v31 (F := Ideal) x0 x2) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨-, -, -, -, e4, e5⟩ := idx_facts t
  funext j
  obtain ⟨p, q, rfl⟩ : ∃ (p : Fin 2000) (q : Fin 128), j = ix2 p q := ⟨j 0, j 1, eq_ix2 j⟩
  show k0_pay1 (xblk V c t) (wblk V c t) (ix2 p q)
    = Cert.ReferenceIdeal.ReadP.val_main_v31 (F := Ideal) x0 x2 (((cfg0.win 2).blk t).view.emb (ix2 p q))
  have hemb : ((cfg0.win 2).blk t).view.emb (ix2 p q) = ix2 (arow t p) q := funext fun a => Fin.ext (by
    match a with
    | ⟨0, _⟩ => show win0_2.index t (0 : Fin 2) * 2000 + 1 * p.val = t.val * 2000 + p.val; rw [e4]; omega
    | ⟨1, _⟩ => show win0_2.index t (1 : Fin 2) * 128 + 1 * q.val = q.val; rw [e5]; omega)
  rw [hemb, Cert.ReferenceIdeal.RefRows.v31_apply, Cert.KernelIdeal.MatmulBlock.pay0_apply]
  refine Finset.sum_congr rfl fun k _ => ?_
  rw [read_x V c t p k, read_w V c t k q, h0, h2]

/-- An index of the result is in point t's block iff its row is among the block's 2000 rows. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

/-- Every index of the result is in the block of the point its row divides to. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 2000 < cfg0.N := by rw [show cfg0.N = 25 from N_0]; omega
  obtain ⟨-, -, -, -, e4, e5⟩ := idx_facts ⟨(i 0).val / 2000, hN⟩
  refine ⟨⟨(i 0).val / 2000, hN⟩, flush0_2 _, ?_⟩
  rw [mem_blk]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 128 ≤ (i 1).val ∧ (i 1).val < win0_2.index ⟨(i 0).val / 2000, hN⟩ (1 : Fin 2) * 128 + 128
    rw [e5]; omega

/-- The result array after the region: the reference's first product of the arrays the region found. -/
theorem array_eq (c : Dev nD) (x0 : (⟨Cert.ReferenceIdeal.S50000x512, .f32⟩ : BufTy).Contents (Elt Ideal))
    (x2 : (⟨Cert.ReferenceIdeal.S512x128, .f32⟩ : BufTy).Contents (Elt Ideal))
    (h0 : V c main_arg0 = x0) (h2 : V c main_arg2 = x2) :
    (dat0 V c).arrAt 2 cfg0.N = Cert.ReferenceIdeal.ReadP.val_main_v31 (F := Ideal) x0 x2 :=
  (dat0 V c).arrAt_eq_of_cover 2 _ (fun t _ => flushed_eq V c x0 x2 h0 h2 t) cover

end Cert.KernelIdeal.Region0

end
-- ==== Proof.Region1.lean ====
/-
  The second dense layer as a whole array. The pipeline runs its body at 10 points; point t loads rows 5000·t … 5000·t+4999
  of the first layer's activations and the whole 128 × 32 weight matrix, and writes back the 5000 × 32 product as rows
  5000·t … of the result. Every row of the 50000 × 32 result lies in the block of point (row / 5000), and an entry of that
  block is the sum over the 128 features of activation times weight: the reference's second product at that row.
-/
import proofs.«145629_j10050223473071_1_alg».proof.Proof.Gen.KernelIdeal.Frame
import proofs.«145629_j10050223473071_1_alg».proof.Proof.MatmulBlock
import proofs.«145629_j10050223473071_1_alg».proof.Proof.RefRows

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the activations' rows and the result rows move with the point, every other block
    index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's block is row 5000·t + p of the array. -/
def arow (t : Fin cfg1.N) (p : Fin 5000) : Fin 50000 :=
  ⟨t.val * 5000 + p.val, by have ht : t.val < 10 := lt_of_lt_of_eq t.isLt N_1; have hp := p.isLt; omega⟩

/-- Point t's block of activations, and of weights, at their literal types. -/
abbrev hblk (c : Dev nD) (t : Fin cfg1.N) : Vec Ideal S5000x128 .f32 := iblk1 V c 0 t
abbrev wblk (c : Dev nD) (t : Fin cfg1.N) : Vec Ideal S128x32 .f32 := iblk1 V c 1 t

/-- The activations and the weights as the region finds them, at their literal types. -/
abbrev harr (c : Dev nD) : Vec Ideal S50000x128 .f32 := V c main_v52
abbrev warr (c : Dev nD) : Vec Ideal S128x32 .f32 := V c main_arg4

/-- The activations' block holds the array's rows 5000·t …. -/
theorem read_h (c : Dev nD) (t : Fin cfg1.N) (p : Fin 5000) (k : Fin 128) :
    hblk V c t (ix2 p k) = V c main_v52 (ix2 (arow t p) k) := by
  obtain ⟨e0, e1, -, -, -, -⟩ := idx_facts t
  show V c main_v52 (((cfg1.win 0).blk t).view.emb (ix2 p k)) = V c main_v52 (ix2 (arow t p) k)
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The weights' block is the whole weight matrix. -/
theorem read_w (c : Dev nD) (t : Fin cfg1.N) (k : Fin 128) (q : Fin 32) :
    wblk V c t (ix2 k q) = V c main_arg4 (ix2 k q) := by
  obtain ⟨-, -, e2, e3, -, -⟩ := idx_facts t
  show V c main_arg4 (((cfg1.win 1).blk t).view.emb (ix2 k q)) = V c main_arg4 (ix2 k q)
  refine congrArg _ (funext fun a => Fin.ext ?_)
  match a with
  | ⟨0, _⟩ => show win1_1.index t (0 : Fin 2) * 128 + 1 * k.val = k.val; rw [e2]; omega
  | ⟨1, _⟩ => show win1_1.index t (1 : Fin 2) * 32 + 1 * q.val = q.val; rw [e3]; omega

/-- What point t writes back is its block of ANY whole-array function G that is, entry by entry, the sum over the 128
    features of the activations the region found times the weights it found: stated over a variable G, so that nothing
    about the reference's own expression for it is opened here. -/
theorem flushed_eq_of (c : Dev nD) (G : (⟨Cert.ReferenceIdeal.S50000x32, .f32⟩ : BufTy).Contents (Elt Ideal))
    (hG : ∀ (P : Fin 50000) (q : Fin 32), G (ix2 P q) = ∑ k : Fin 128, harr V c (ix2 P k) * warr V c (ix2 k q))
    (t : Fin cfg1.N) :
    (dat1 V c).flushed 2 t = ((cfg1.win 2).blk t).view.read (Elt Ideal) G := by
  show (cfg1.win 2).cut (grid1.coords t) ((dat1 V c).after 2 t) = _
  rw [after1_2]
  unfold out1_2
  rw [View.canon_unit_zero hz]
  simp only [View.ld_unit_zero (S := S5000x128) hz, View.ld_unit_zero (S := S128x32) hz]
  obtain ⟨-, -, -, -, e4, e5⟩ := idx_facts t
  funext j
  obtain ⟨p, q, rfl⟩ : ∃ (p : Fin 5000) (q : Fin 32), j = ix2 p q := ⟨j 0, j 1, eq_ix2 j⟩
  show k1_pay1 (hblk V c t) (wblk V c t) (ix2 p q) = G (((cfg1.win 2).blk t).view.emb (ix2 p q))
  have hemb : ((cfg1.win 2).blk t).view.emb (ix2 p q) = ix2 (arow t p) q := funext fun a => Fin.ext (by
    match a with
    | ⟨0, _⟩ => show win1_2.index t (0 : Fin 2) * 5000 + 1 * p.val = t.val * 5000 + p.val; rw [e4]; omega
    | ⟨1, _⟩ => show win1_2.index t (1 : Fin 2) * 32 + 1 * q.val = q.val; rw [e5]; omega)
  rw [hemb, hG, Cert.KernelIdeal.MatmulBlock.pay1_apply]
  refine Finset.sum_congr rfl fun k _ => ?_
  rw [read_h V c t p k, read_w V c t k q]

/-- What point t writes back is its block of the reference's second product, when the region finds the reference's
    first-layer activations and the weights. -/
theorem flushed_eq (c : Dev nD) (x0 : (⟨Cert.ReferenceIdeal.S50000x512, .f32⟩ : BufTy).Contents (Elt Ideal)) (x1 : (⟨Cert.ReferenceIdeal.S2x1600000, .i32⟩ : BufTy).Contents (Elt Ideal)) (x2 : (⟨Cert.ReferenceIdeal.S512x128, .f32⟩ : BufTy).Contents (Elt Ideal))
    (x3 : (⟨Cert.ReferenceIdeal.S128, .f32⟩ : BufTy).Contents (Elt Ideal)) (x4 : (⟨Cert.ReferenceIdeal.S128x32, .f32⟩ : BufTy).Contents (Elt Ideal))
    (h52 : V c main_v52 = Cert.ReferenceIdeal.ReadP.val_main_v52 (F := Ideal) x0 x1 x2 x3) (h4 : V c main_arg4 = x4) (t : Fin cfg1.N) :
    (dat1 V c).flushed 2 t
      = ((cfg1.win 2).blk t).view.read (Elt Ideal) (Cert.ReferenceIdeal.ReadP.val_main_v53 (F := Ideal) x0 x1 x2 x3 x4) :=
  flushed_eq_of V c _ (fun P q => by rw [Cert.ReferenceIdeal.RefRows.v53_apply]; unfold harr warr; rw [h52, h4]) t

/-- An index of the result is in point t's block iff its row is among the block's 5000 rows. -/
theorem mem_blk (t : Fin cfg1.N) (i : S50000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v53).slice (win1_2.rect t)).set ↔ _
  rw [View.set_slice_whole, Rect.mem_set_unit]
  exact Iff.rfl

/-- Every index of the result is in the block of the point its row divides to. -/
theorem cover (i : S50000x32.Idx) : ∃ t : Fin cfg1.N, (cfg1.win 2).flush t = true ∧ i ∈ ((cfg1.win 2).blk t).view.set := by
  have hi0 : (i 0).val < 50000 := (i 0).isLt
  have hi1 : (i 1).val < 32 := (i 1).isLt
  have hN : (i 0).val / 5000 < cfg1.N := by rw [show cfg1.N = 10 from N_1]; omega
  obtain ⟨-, -, -, -, e4, e5⟩ := idx_facts ⟨(i 0).val / 5000, hN⟩
  refine ⟨⟨(i 0).val / 5000, hN⟩, flush1_2 _, ?_⟩
  rw [mem_blk]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hN⟩ (1 : Fin 2) * 32 ≤ (i 1).val ∧ (i 1).val < win1_2.index ⟨(i 0).val / 5000, hN⟩ (1 : Fin 2) * 32 + 32
    rw [e5]; omega

/-- The result array after the region: the reference's second product. -/
theorem array_eq (c : Dev nD) (x0 : (⟨Cert.ReferenceIdeal.S50000x512, .f32⟩ : BufTy).Contents (Elt Ideal)) (x1 : (⟨Cert.ReferenceIdeal.S2x1600000, .i32⟩ : BufTy).Contents (Elt Ideal)) (x2 : (⟨Cert.ReferenceIdeal.S512x128, .f32⟩ : BufTy).Contents (Elt Ideal))
    (x3 : (⟨Cert.ReferenceIdeal.S128, .f32⟩ : BufTy).Contents (Elt Ideal)) (x4 : (⟨Cert.ReferenceIdeal.S128x32, .f32⟩ : BufTy).Contents (Elt Ideal))
    (h52 : V c main_v52 = Cert.ReferenceIdeal.ReadP.val_main_v52 (F := Ideal) x0 x1 x2 x3) (h4 : V c main_arg4 = x4) :
    (dat1 V c).arrAt 2 cfg1.N = Cert.ReferenceIdeal.ReadP.val_main_v53 (F := Ideal) x0 x1 x2 x3 x4 :=
  (dat1 V c).arrAt_eq_of_cover 2 _ (fun t _ => flushed_eq V c x0 x1 x2 x3 x4 h52 h4 t) cover

end Cert.KernelIdeal.Region1

end
-- ==== Proof.SoftmaxBlock.lean ====
/-
  The last layer on a block of 5000 nodes: the kernel's stored value at node p, class q is the softmax of that node's
  two logits (RowSoftmax), the logits the affine image of the node's 32 features.
-/
import proofs.«145629_j10050223473071_1_alg».proof.Proof.Gen.KernelIdeal.Skeleton
import proofs.«145629_j10050223473071_1_alg».proof.Proof.RowSoftmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.SoftmaxBlock

open Cert.KernelIdeal Cert.KernelIdeal.Gen Idealize.ShloMosaic Idealize.ShloMosaic.ValueIdx

/-! ## The product of the features with the weights, entry by entry

The product's dimension numbers contract the features' axis 1 with the weights' axis 0. Each operand's index at an output
entry (p, q) and a contraction coordinate k is read axis by axis: (p, k) on the left, (k, q) on the right. -/

/-- The left operand's row is the output's row. -/
theorem lhs_dot_0 (i : S5000x2.Idx) (c : dot_S5000x32_S32x2_S5000x2_1_0_0_1_n_n.contr.Idx) :
    (dot_S5000x32_S32x2_S5000x2_1_0_0_1_n_n.lhsIdx i c 0).val = (i 0).val := by
  unfold DotDims.lhsIdx
  rw [dif_neg (show ¬(0 : Fin S5000x32.rank) ∈ dot_S5000x32_S32x2_S5000x2_1_0_0_1_n_n.lhsBatch by decide),
    dif_pos (show (0 : Fin S5000x32.rank) ∈ dot_S5000x32_S32x2_S5000x2_1_0_0_1_n_n.lhsNonContracting by decide)]
  rfl

/-- The left operand's column is the contraction coordinate. -/
theorem lhs_dot_1 (i : S5000x2.Idx) (c : dot_S5000x32_S32x2_S5000x2_1_0_0_1_n_n.contr.Idx) :
    (dot_S5000x32_S32x2_S5000x2_1_0_0_1_n_n.lhsIdx i c 1).val = (c ⟨0, by decide⟩).val :=
  dot_S5000x32_S32x2_S5000x2_1_0_0_1_n_n.lhsIdx_val_of_single rfl i c

/-- The right operand's row is the contraction coordinate. -/
theorem rhs_dot_0 (i : S5000x2.Idx) (c : dot_S5000x32_S32x2_S5000x2_1_0_0_1_n_n.contr.Idx) :
    (dot_S5000x32_S32x2_S5000x2_1_0_0_1_n_n.rhsIdx i c 0).val = (c ⟨0, by decide⟩).val :=
  dot_S5000x32_S32x2_S5000x2_1_0_0_1_n_n.rhsIdx_val_of_single rfl i c

/-- The right operand's column is the output's column. -/
theorem rhs_dot_1 (i : S5000x2.Idx) (c : dot_S5000x32_S32x2_S5000x2_1_0_0_1_n_n.contr.Idx) :
    (dot_S5000x32_S32x2_S5000x2_1_0_0_1_n_n.rhsIdx i c 1).val = (i 1).val := by
  unfold DotDims.rhsIdx
  rw [dif_neg (show ¬(1 : Fin S32x2.rank) ∈ dot_S5000x32_S32x2_S5000x2_1_0_0_1_n_n.rhsBatch by decide),
    dif_pos (show (1 : Fin S32x2.rank) ∈ dot_S5000x32_S32x2_S5000x2_1_0_0_1_n_n.rhsNonContracting by decide)]
  rfl

/-- The product into the zero block, at (p, q): the sum over the 32 features of row p times column q. -/
theorem product_apply (a : FVec Ideal S5000x32 .bf16) (b : FVec Ideal S32x2 .bf16) (p : Fin 5000) (q : Fin 2) :
    matmul dot_S5000x32_S32x2_S5000x2_1_0_0_1_n_n none a b (constant (F := Ideal) S5000x2 .f32 0x00000000#32) (ix2 p q)
      = ∑ k : Fin 32, a (ix2 p k) * b (ix2 k q) := by
  simp only [matmul]
  rw [Ideal.matmul_constant_zero_apply,
    ← Equiv.sum_comp (ValueIdx.contrEquiv1 dot_S5000x32_S32x2_S5000x2_1_0_0_1_n_n 32 rfl rfl).symm]
  refine Finset.sum_congr rfl fun k _ => ?_
  have hk := ValueIdx.contrEquiv1_symm_val dot_S5000x32_S32x2_S5000x2_1_0_0_1_n_n 32 rfl rfl k
  have el : dot_S5000x32_S32x2_S5000x2_1_0_0_1_n_n.lhsIdx (ix2 p q)
      ((ValueIdx.contrEquiv1 dot_S5000x32_S32x2_S5000x2_1_0_0_1_n_n 32 rfl rfl).symm k) = ix2 p k :=
    funext fun ax => Fin.ext (by
      match ax with
      | ⟨0, _⟩ => exact lhs_dot_0 _ _
      | ⟨1, _⟩ => exact (lhs_dot_1 _ _).trans hk)
  have er : dot_S5000x32_S32x2_S5000x2_1_0_0_1_n_n.rhsIdx (ix2 p q)
      ((ValueIdx.contrEquiv1 dot_S5000x32_S32x2_S5000x2_1_0_0_1_n_n 32 rfl rfl).symm k) = ix2 k q :=
    funext fun ax => Fin.ext (by
      match ax with
      | ⟨0, _⟩ => exact (rhs_dot_0 _ _).trans hk
      | ⟨1, _⟩ => exact rhs_dot_1 _ _)
  rw [el, er]

/-! ## A vector laid out as a column, and a column repeated across a row -/

/-- A length-a vector cast to an [a, 1] column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-node vector spread over the node's two classes. -/
def spread (v : FVec Ideal S5000 .f32) : FVec Ideal S5000x2 .f32 :=
  broadcastTo S5000x2 (shapeCast S5000x1 v shapeCasts_S5000_S5000x1) broadcasts_S5000x1_S5000x2

/-- Spread over the classes, node p's entry is read at every class. -/
theorem spread_apply (v : FVec Ideal S5000 .f32) (p : Fin 5000) (q : Fin 2) : spread v (ix2 p q) = v (ix1 p) := by
  unfold spread
  rw [broadcastTo_a1_ab_apply, shapeCast_a_a1_apply]

/-! ## The reductions along a node's two classes -/

/-- Node p's index with class k put back is (p, k). -/
theorem lift_row (p : Fin 5000) (k : Fin 2) : (reduces_S5000x2_S5000).lift (ix1 p) k = ix2 p k := by
  funext c; apply Fin.ext
  match c with
  | ⟨0, _⟩ => rfl
  | ⟨1, _⟩ => rfl

/-- The maximum over a node's classes, folded from −∞. -/
theorem rowFold_apply (z : FVec Ideal S5000x2 .f32) (p : Fin 5000) :
    multiReduction (F := Ideal) .maximumf [1] S5000 z 0xFF800000#32 reduces_S5000x2_S5000 (.inl rfl) rfl (ix1 p)
      = (Finset.univ : Finset (Fin 2)).fold max (Ideal.ofBits .f32 0xFF800000#32) (fun q' => z (ix2 p q')) := by
  refine (Ideal.multiReduction_maximumf_single z 0xFF800000#32 reduces_S5000x2_S5000 (.inl rfl) rfl (ix1 p)).trans ?_
  have hf : (z ∘ (reduces_S5000x2_S5000).lift (ix1 p)) = fun q' : Fin 2 => z (ix2 p q') :=
    funext fun k => congrArg z (lift_row p k)
  exact congrArg (fun f => Finset.fold max (Ideal.ofBits .f32 0xFF800000#32) f (Finset.univ : Finset (Fin 2))) hf

/-- The sum over a node's classes. -/
theorem rowSum_apply (e : FVec Ideal S5000x2 .f32) (p : Fin 5000) :
    multiReduction (F := Ideal) .add [1] S5000 e 0x00000000#32 reduces_S5000x2_S5000 (.inl rfl) rfl (ix1 p)
      = ∑ q' : Fin 2, e (ix2 p q') := by
  refine (Ideal.multiReduction_add_single e 0x00000000#32 reduces_S5000x2_S5000 (.inl rfl) rfl (ix1 p)).trans ?_
  exact Finset.sum_congr rfl fun k _ => congrArg e (lift_row p k)

/-! ## The block's value in stages: logits, row maximum, exponentials, row sum, quotient -/

/-- The block's logits: features times weights, plus the bias row under every node. -/
def logitsV (x0 : Vec Ideal S5000x32 .f32) (x1 : Vec Ideal S32x2 .f32) (x2 : Vec Ideal S2 .f32) : FVec Ideal S5000x2 .f32 :=
  addf
    (matmul dot_S5000x32_S32x2_S5000x2_1_0_0_1_n_n none
      (truncf .bf16 (shapeCast S5000x32 x0 shapeCasts_S5000x32_S5000x32 : FVec Ideal S5000x32 .f32) bitsLt_bf16_f32)
      (truncf .bf16 (x1 : FVec Ideal S32x2 .f32) bitsLt_bf16_f32) (constant S5000x2 .f32 0x00000000#32))
    (broadcastTo S5000x2 (shapeCast S1x2 x2 shapeCasts_S2_S1x2 : FVec Ideal S1x2 .f32) broadcasts_S1x2_S5000x2)

/-- Each node's largest logit, never below −∞. -/
def rowMaxV (z : FVec Ideal S5000x2 .f32) : FVec Ideal S5000 .f32 :=
  maximumf (broadcast S5000 (Scalar.ofBits (F := Ideal) .f32 0xFF800000#32))
    (multiReduction .maximumf [1] S5000 z 0xFF800000#32 reduces_S5000x2_S5000 (.inl rfl) rfl)

/-- Each logit's exponential of its distance to its node's largest logit. -/
def expV (z : FVec Ideal S5000x2 .f32) : FVec Ideal S5000x2 .f32 := exp (subf z (spread (rowMaxV z)))

/-- Each node's sum over its classes. -/
def rowSumV (e : FVec Ideal S5000x2 .f32) : FVec Ideal S5000 .f32 :=
  multiReduction .add [1] S5000 e 0x00000000#32 reduces_S5000x2_S5000 (.inl rfl) rfl

/-- The block's value from its logits: each exponential over its node's sum of exponentials. -/
def softmaxV (z : FVec Ideal S5000x2 .f32) : FVec Ideal S5000x2 .f32 := divf (expV z) (spread (rowSumV (expV z)))

/-- The stored value is the staged one: the stages are the payload's own operations, in its order. -/
theorem pay2_eq (x0 : Vec Ideal S5000x32 .f32) (x1 : Vec Ideal S32x2 .f32) (x2 : Vec Ideal S2 .f32) :
    k2_pay1 (F := Ideal) x0 x1 x2 = softmaxV (logitsV x0 x1 x2) := rfl

/-- A node's logits are the affine image of its features. -/
theorem logitsV_apply (x0 : Vec Ideal S5000x32 .f32) (x1 : Vec Ideal S32x2 .f32) (x2 : Vec Ideal S2 .f32) (p : Fin 5000) (q : Fin 2) :
    logitsV x0 x1 x2 (ix2 p q)
      = Cert.RowSoftmax.logits (fun k => x0 (ix2 p k)) (fun k q' => x1 (ix2 k q')) (fun q' => x2 (ix1 q')) q := by
  unfold logitsV Cert.RowSoftmax.logits
  rw [addf_apply, product_apply, broadcastTo_1b_ab_apply, shapeCast_a_1a_apply, shapeCast_self]
  rfl

/-- A node's largest logit is its row's. -/
theorem rowMaxV_apply (z : FVec Ideal S5000x2 .f32) (p : Fin 5000) :
    rowMaxV z (ix1 p) = Cert.RowSoftmax.rowMax (fun q' => z (ix2 p q')) := by
  unfold rowMaxV Cert.RowSoftmax.rowMax
  rw [maximumf_apply, broadcast_apply, rowFold_apply]
  rfl

/-- An entry's exponential is its row's. -/
theorem expV_apply (z : FVec Ideal S5000x2 .f32) (p : Fin 5000) (q : Fin 2) :
    expV z (ix2 p q) = Cert.RowSoftmax.rowExp (fun q' => z (ix2 p q')) q := by
  unfold expV Cert.RowSoftmax.rowExp
  show Ideal.exp (z (ix2 p q) - spread (rowMaxV z) (ix2 p q)) = _
  rw [spread_apply, rowMaxV_apply]

/-- An entry of the staged value is its row's softmax. -/
theorem softmaxV_apply (z : FVec Ideal S5000x2 .f32) (p : Fin 5000) (q : Fin 2) :
    softmaxV z (ix2 p q) = Cert.RowSoftmax.softmax (fun q' => z (ix2 p q')) q := by
  unfold softmaxV Cert.RowSoftmax.softmax
  rw [divf_apply, spread_apply]
  unfold rowSumV
  rw [rowSum_apply, expV_apply]
  exact congrArg (Ideal.div _) (Finset.sum_congr rfl fun q' _ => expV_apply z p q')

/-- The block's stored value, entry by entry. -/
theorem pay2_apply (x0 : Vec Ideal S5000x32 .f32) (x1 : Vec Ideal S32x2 .f32) (x2 : Vec Ideal S2 .f32) (p : Fin 5000) (q : Fin 2) :
    k2_pay1 (F := Ideal) x0 x1 x2 (ix2 p q)
      = Cert.RowSoftmax.softmax (Cert.RowSoftmax.logits (fun k => x0 (ix2 p k)) (fun k q' => x1 (ix2 k q')) (fun q' => x2 (ix1 q'))) q := by
  rw [pay2_eq, softmaxV_apply]
  exact Cert.RowSoftmax.softmax_congr (fun q' => logitsV_apply x0 x1 x2 p q') q

end Cert.KernelIdeal.SoftmaxBlock

end
-- ==== Proof.Region2.lean ====
/-
  The last layer as a whole array. The pipeline runs its body at 10 points; point t loads rows 5000·t … 5000·t+4999 of the
  second layer's activations, the whole 32 × 2 weight matrix and the two biases, and writes back, for each of its 5000
  nodes, the softmax of that node's two logits. The reference computes the same row softmax for all 50000 nodes at once.
  A node's softmax depends only on its own row of activations, so the block of point t is rows 5000·t … of the
  reference's result, and the ten blocks tile it.
-/
import proofs.«145629_j10050223473071_1_alg».proof.Proof.Gen.KernelIdeal.Frame
import proofs.«145629_j10050223473071_1_alg».proof.Proof.SoftmaxBlock
import proofs.«145629_j10050223473071_1_alg».proof.Proof.RefRows

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block indices over the grid: the activations' rows and the result rows move with the point, every other block
    index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Row p of point t's block is row 5000·t + p of the array. -/
def arow (t : Fin cfg2.N) (p : Fin 5000) : Fin 50000 :=
  ⟨t.val * 5000 + p.val, by have ht : t.val < 10 := lt_of_lt_of_eq t.isLt N_2; have hp := p.isLt; omega⟩

/-- Point t's block of activations, of weights and of biases, at their literal types. -/
abbrev hblk (c : Dev nD) (t : Fin cfg2.N) : Vec Ideal S5000x32 .f32 := iblk2 V c 0 t
abbrev wblk (c : Dev nD) (t : Fin cfg2.N) : Vec Ideal S32x2 .f32 := iblk2 V c 1 t
abbrev bblk (c : Dev nD) (t : Fin cfg2.N) : Vec Ideal S2 .f32 := iblk2 V c 2 t

/-- The activations' block holds the array's rows 5000·t …. -/
theorem read_h (c : Dev nD) (t : Fin cfg2.N) (p : Fin 5000) (k : Fin 32) :
    hblk V c t (ix2 p k) = V c main_v74 (ix2 (arow t p) k) := by
  obtain ⟨e0, e1, -, -, -, -, -⟩ := idx_facts t
  show V c main_v74 (((cfg2.win 0).blk t).view.emb (ix2 p k)) = V c main_v74 (ix2 (arow t p) k)
  refine congrArg _ (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 32 + 1 * k.val = k.val; rw [e1]; omega

/-- The weights' block is the whole weight matrix. -/
theorem read_w (c : Dev nD) (t : Fin cfg2.N) (k : Fin 32) (q : Fin 2) :
    wblk V c t (ix2 k q) = V c main_arg6 (ix2 k q) := by
  obtain ⟨-, -, e2, e3, -, -, -⟩ := idx_facts t
  show V c main_arg6 (((cfg2.win 1).blk t).view.emb (ix2 k q)) = V c main_arg6 (ix2 k q)
  refine congrArg _ (funext fun a => Fin.ext ?_)
  match a with
  | ⟨0, _⟩ => show win2_1.index t (0 : Fin 2) * 32 + 1 * k.val = k.val; rw [e2]; omega
  | ⟨1, _⟩ => show win2_1.index t (1 : Fin 2) * 2 + 1 * q.val = q.val; rw [e3]; omega

/-- The biases' block is the whole bias vector. -/
theorem read_b (c : Dev nD) (t : Fin cfg2.N) (q : Fin 2) :
    bblk V c t (ix1 q) = V c main_arg7 (ix1 q) := by
  obtain ⟨-, -, -, -, e4, -, -⟩ := idx_facts t
  show V c main_arg7 (((cfg2.win 2).blk t).view.emb (ix1 q)) = V c main_arg7 (ix1 q)
  refine congrArg _ (funext fun a => Fin.ext ?_)
  match a with
  | ⟨0, _⟩ => show win2_2.index t (0 : Fin 1) * 2 + 1 * q.val = q.val; rw [e4]; omega

/-- What point t writes back is its block of the reference's result, when the region finds the reference's
    second-layer activations, the weights and the biases. -/
theorem flushed_eq (c : Dev nD) (x0 : (⟨Cert.ReferenceIdeal.S50000x512, .f32⟩ : BufTy).Contents (Elt Ideal)) (x1 : (⟨Cert.ReferenceIdeal.S2x1600000, .i32⟩ : BufTy).Contents (Elt Ideal)) (x2 : (⟨Cert.ReferenceIdeal.S512x128, .f32⟩ : BufTy).Contents (Elt Ideal))
    (x3 : (⟨Cert.ReferenceIdeal.S128, .f32⟩ : BufTy).Contents (Elt Ideal)) (x4 : (⟨Cert.ReferenceIdeal.S128x32, .f32⟩ : BufTy).Contents (Elt Ideal)) (x5 : (⟨Cert.ReferenceIdeal.S32, .f32⟩ : BufTy).Contents (Elt Ideal)) (x6 : (⟨Cert.ReferenceIdeal.S32x2, .f32⟩ : BufTy).Contents (Elt Ideal)) (x7 : (⟨Cert.ReferenceIdeal.S2, .f32⟩ : BufTy).Contents (Elt Ideal))
    (h74 : V c main_v74 = Cert.ReferenceIdeal.ReadP.val_main_v74 (F := Ideal) x0 x1 x2 x3 x4 x5) (h6 : V c main_arg6 = x6)
    (h7 : V c main_arg7 = x7) (t : Fin cfg2.N) :
    (dat2 V c).flushed 3 t
      = ((cfg2.win 3).blk t).view.read (Elt Ideal) (Cert.ReferenceIdeal.ReadP.val_main_v89 (F := Ideal) x0 x1 x2 x3 x4 x5 x6 x7) := by
  show (cfg2.win 3).cut (grid2.coords t) ((dat2 V c).after 3 t) = _
  rw [after2_3]
  unfold out2_3
  rw [View.canon_unit_zero hz]
  simp only [View.ld_unit_zero (S := S5000x32) hz, View.ld_unit_zero (S := S32x2) hz, View.ld_unit_zero (S := S2) hz1]
  obtain ⟨-, -, -, -, -, e5, e6⟩ := idx_facts t
  funext j
  obtain ⟨p, q, rfl⟩ : ∃ (p : Fin 5000) (q : Fin 2), j = ix2 p q := ⟨j 0, j 1, eq_ix2 j⟩
  show k2_pay1 (hblk V c t) (wblk V c t) (bblk V c t) (ix2 p q)
    = Cert.ReferenceIdeal.ReadP.val_main_v89 (F := Ideal) x0 x1 x2 x3 x4 x5 x6 x7 (((cfg2.win 3).blk t).view.emb (ix2 p q))
  have hemb : ((cfg2.win 3).blk t).view.emb (ix2 p q) = ix2 (arow t p) q := funext fun a => Fin.ext (by
    match a with
    | ⟨0, _⟩ => show win2_3.index t (0 : Fin 2) * 5000 + 1 * p.val = t.val * 5000 + p.val; rw [e5]; omega
    | ⟨1, _⟩ => show win2_3.index t (1 : Fin 2) * 2 + 1 * q.val = q.val; rw [e6]; omega)
  rw [hemb, Cert.ReferenceIdeal.RefRows.v89_apply, Cert.KernelIdeal.SoftmaxBlock.pay2_apply]
  have hA : (fun k => hblk V c t (ix2 p k)) = fun k => Cert.ReferenceIdeal.ReadP.val_main_v74 (F := Ideal) x0 x1 x2 x3 x4 x5 (ix2 (arow t p) k) :=
    funext fun k => by rw [read_h V c t p k, h74]
  have hB : (fun k q' => wblk V c t (ix2 k q')) = fun (k : Fin 32) (q' : Fin 2) => x6 (ix2 k q') :=
    funext fun k => funext fun q' => by rw [read_w V c t k q', h6]
  have hC : (fun q' => bblk V c t (ix1 q')) = fun (q' : Fin 2) => x7 (ix1 q') :=
    funext fun q' => by rw [read_b V c t q', h7]
  rw [hA, hB, hC]

/-- An index of the result is in point t's block iff its row is among the block's 5000 rows. -/
theorem mem_blk (t : Fin cfg2.N) (i : S50000x2.Idx) :
    i ∈ ((cfg2.win 3).blk t).view.set ↔ ∀ a : Fin 2, win2_3.index t a * S5000x2.size a ≤ (i a).val ∧ (i a).val < win2_3.index t a * S5000x2.size a + S5000x2.size a := by
  show i ∈ ((View.whole main_v75).slice (win2_3.rect t)).set ↔ _
  rw [View.set_slice_whole, Rect.mem_set_unit]
  exact Iff.rfl

/-- Every index of the result is in the block of the point its row divides to. -/
theorem cover (i : S50000x2.Idx) : ∃ t : Fin cfg2.N, (cfg2.win 3).flush t = true ∧ i ∈ ((cfg2.win 3).blk t).view.set := by
  have hi0 : (i 0).val < 50000 := (i 0).isLt
  have hi1 : (i 1).val < 2 := (i 1).isLt
  have hN : (i 0).val / 5000 < cfg2.N := by rw [show cfg2.N = 10 from N_2]; omega
  obtain ⟨-, -, -, -, -, e5, e6⟩ := idx_facts ⟨(i 0).val / 5000, hN⟩
  refine ⟨⟨(i 0).val / 5000, hN⟩, flush2_3 _, ?_⟩
  rw [mem_blk]
  intro a
  match a with
  | ⟨0, _⟩ =>
    show win2_3.index ⟨(i 0).val / 5000, hN⟩ (0 : Fin 2) * 5000 ≤ (i 0).val ∧ (i 0).val < win2_3.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win2_3.index ⟨(i 0).val / 5000, hN⟩ (1 : Fin 2) * 2 ≤ (i 1).val ∧ (i 1).val < win2_3.index ⟨(i 0).val / 5000, hN⟩ (1 : Fin 2) * 2 + 2
    rw [e6]; omega

/-- The result array after the region: the reference's result. -/
theorem array_eq (c : Dev nD) (x0 : (⟨Cert.ReferenceIdeal.S50000x512, .f32⟩ : BufTy).Contents (Elt Ideal)) (x1 : (⟨Cert.ReferenceIdeal.S2x1600000, .i32⟩ : BufTy).Contents (Elt Ideal)) (x2 : (⟨Cert.ReferenceIdeal.S512x128, .f32⟩ : BufTy).Contents (Elt Ideal))
    (x3 : (⟨Cert.ReferenceIdeal.S128, .f32⟩ : BufTy).Contents (Elt Ideal)) (x4 : (⟨Cert.ReferenceIdeal.S128x32, .f32⟩ : BufTy).Contents (Elt Ideal)) (x5 : (⟨Cert.ReferenceIdeal.S32, .f32⟩ : BufTy).Contents (Elt Ideal)) (x6 : (⟨Cert.ReferenceIdeal.S32x2, .f32⟩ : BufTy).Contents (Elt Ideal)) (x7 : (⟨Cert.ReferenceIdeal.S2, .f32⟩ : BufTy).Contents (Elt Ideal))
    (h74 : V c main_v74 = Cert.ReferenceIdeal.ReadP.val_main_v74 (F := Ideal) x0 x1 x2 x3 x4 x5) (h6 : V c main_arg6 = x6)
    (h7 : V c main_arg7 = x7) :
    (dat2 V c).arrAt 3 cfg2.N = Cert.ReferenceIdeal.ReadP.val_main_v89 (F := Ideal) x0 x1 x2 x3 x4 x5 x6 x7 :=
  (dat2 V c).arrAt_eq_of_cover 3 _ (fun t _ => flushed_eq V c x0 x1 x2 x3 x4 x5 x6 x7 h74 h6 h7 t) cover

end Cert.KernelIdeal.Region2

end
-- ==== Proof.KernelStages.lean ====
/-
  The kernel's program, boundary by boundary, read as the reference's stage functions of the arguments. The buffer contents
  at each boundary are a fold from the launch memory: a host stretch applies its operations, a region leaves its result
  array at what its write-backs tile it with and every other buffer as entered. Walking the fold forward: the edge lists
  and weights; the first product (region 0) is the reference's; the first layer's activations; the second product
  (region 1); the second layer's activations; and the last region's result array is the reference's result.
-/
import proofs.«145629_j10050223473071_1_alg».proof.Proof.Gen.KernelIdeal.Frame
import proofs.«145629_j10050223473071_1_alg».proof.Proof.KernelStretches
import proofs.«145629_j10050223473071_1_alg».proof.Proof.Region0
import proofs.«145629_j10050223473071_1_alg».proof.Proof.Region1
import proofs.«145629_j10050223473071_1_alg».proof.Proof.Region2

set_option maxRecDepth 16384

noncomputable section

namespace Cert.KernelIdeal.Stages

open Cert.KernelIdeal Cert.KernelIdeal.Gen Idealize.ShloMosaic Idealize.ShloMosaic.TcCoe Idealize.ShloMosaic.StableHlo Idealize.SL.Sem
open Cert.ReferenceIdeal.ReadP

variable (m : (ℓ : Loc nD τ sig) → Buf (Elt Ideal) ℓ) (ρ : Dev nD → PrngReg)

/-! ## Up to the first region -/

theorem W2_v15 (c : Dev nD) : W2 m ρ c (Proc.devRef .tc main_v15) = val_main_v15 (F := Ideal) (m ((c : Thread nD τ).loc main_arg1)) :=
  Stretches.norm_v15 (W1 m ρ c) _ (Stretches.pre_v13 _) (Stretches.pre_v14 _) (Stretches.pre_cst_2 _)
theorem W2_v3 (c : Dev nD) : W2 m ρ c (Proc.devRef .tc main_v3) = val_main_v3 (F := Ideal) (m ((c : Thread nD τ).loc main_arg1)) :=
  (show after hostOps0_1 (W1 m ρ c) (Proc.devRef .tc main_v3) = W1 m ρ c (Proc.devRef .tc main_v3) by after_results_simp).trans (Stretches.pre_v3 _)
theorem W2_v7 (c : Dev nD) : W2 m ρ c (Proc.devRef .tc main_v7) = val_main_v7 (F := Ideal) (m ((c : Thread nD τ).loc main_arg1)) :=
  (show after hostOps0_1 (W1 m ρ c) (Proc.devRef .tc main_v7) = W1 m ρ c (Proc.devRef .tc main_v7) by after_results_simp).trans (Stretches.pre_v7 _)
theorem W3_v30 (c : Dev nD) : W3 m ρ c (Proc.devRef .tc main_v30) = val_main_v30 (F := Ideal) (m ((c : Thread nD τ).loc main_arg1)) :=
  Stretches.weights_v30 (W2 m ρ c) _ (W2_v15 m ρ c) (W2_v3 m ρ c) (W2_v7 m ρ c)
theorem W3_v3 (c : Dev nD) : W3 m ρ c (Proc.devRef .tc main_v3) = val_main_v3 (F := Ideal) (m ((c : Thread nD τ).loc main_arg1)) :=
  (show after hostOps0_2 (W2 m ρ c) (Proc.devRef .tc main_v3) = W2 m ρ c (Proc.devRef .tc main_v3) by after_results_simp).trans (W2_v3 m ρ c)
theorem W3_v7 (c : Dev nD) : W3 m ρ c (Proc.devRef .tc main_v7) = val_main_v7 (F := Ideal) (m ((c : Thread nD τ).loc main_arg1)) :=
  (show after hostOps0_2 (W2 m ρ c) (Proc.devRef .tc main_v7) = W2 m ρ c (Proc.devRef .tc main_v7) by after_results_simp).trans (W2_v7 m ρ c)
theorem W3_arg0 (c : Dev nD) : W3 m ρ c (Proc.devRef .tc main_arg0) = (m ((c : Thread nD τ).loc main_arg0)) := by
  show after hostOps0_2 (after hostOps0_1 (after hostOps0 (W0 m ρ c))) (Proc.devRef .tc main_arg0) = _
  after_results_simp <;> rfl
theorem W3_arg2 (c : Dev nD) : W3 m ρ c (Proc.devRef .tc main_arg2) = (m ((c : Thread nD τ).loc main_arg2)) := by
  show after hostOps0_2 (after hostOps0_1 (after hostOps0 (W0 m ρ c))) (Proc.devRef .tc main_arg2) = _
  after_results_simp <;> rfl
theorem W3_arg3 (c : Dev nD) : W3 m ρ c (Proc.devRef .tc main_arg3) = (m ((c : Thread nD τ).loc main_arg3)) := by
  show after hostOps0_2 (after hostOps0_1 (after hostOps0 (W0 m ρ c))) (Proc.devRef .tc main_arg3) = _
  after_results_simp <;> rfl
theorem W3_arg4 (c : Dev nD) : W3 m ρ c (Proc.devRef .tc main_arg4) = (m ((c : Thread nD τ).loc main_arg4)) := by
  show after hostOps0_2 (after hostOps0_1 (after hostOps0 (W0 m ρ c))) (Proc.devRef .tc main_arg4) = _
  after_results_simp <;> rfl
theorem W3_arg5 (c : Dev nD) : W3 m ρ c (Proc.devRef .tc main_arg5) = (m ((c : Thread nD τ).loc main_arg5)) := by
  show after hostOps0_2 (after hostOps0_1 (after hostOps0 (W0 m ρ c))) (Proc.devRef .tc main_arg5) = _
  after_results_simp <;> rfl
theorem W3_arg6 (c : Dev nD) : W3 m ρ c (Proc.devRef .tc main_arg6) = (m ((c : Thread nD τ).loc main_arg6)) := by
  show after hostOps0_2 (after hostOps0_1 (after hostOps0 (W0 m ρ c))) (Proc.devRef .tc main_arg6) = _
  after_results_simp <;> rfl
theorem W3_arg7 (c : Dev nD) : W3 m ρ c (Proc.devRef .tc main_arg7) = (m ((c : Thread nD τ).loc main_arg7)) := by
  show after hostOps0_2 (after hostOps0_1 (after hostOps0 (W0 m ρ c))) (Proc.devRef .tc main_arg7) = _
  after_results_simp <;> rfl

/-! ## The first region and the first layer -/

theorem W4_v31 (c : Dev nD) : W4 m ρ c (Proc.devRef .tc main_v31) = val_main_v31 (F := Ideal) (m ((c : Thread nD τ).loc main_arg0)) (m ((c : Thread nD τ).loc main_arg2)) :=
  (W4_arr m ρ c 2).trans (Region0.array_eq (V3 m ρ) c _ _ (W3_arg0 m ρ c) (W3_arg2 m ρ c))
theorem W4_v3 (c : Dev nD) : W4 m ρ c (Proc.devRef .tc main_v3) = val_main_v3 (F := Ideal) (m ((c : Thread nD τ).loc main_arg1)) :=
  (W4_of_ne m ρ c main_v3 (by decide)).trans (W3_v3 m ρ c)
theorem W4_v7 (c : Dev nD) : W4 m ρ c (Proc.devRef .tc main_v7) = val_main_v7 (F := Ideal) (m ((c : Thread nD τ).loc main_arg1)) :=
  (W4_of_ne m ρ c main_v7 (by decide)).trans (W3_v7 m ρ c)
theorem W4_v30 (c : Dev nD) : W4 m ρ c (Proc.devRef .tc main_v30) = val_main_v30 (F := Ideal) (m ((c : Thread nD τ).loc main_arg1)) :=
  (W4_of_ne m ρ c main_v30 (by decide)).trans (W3_v30 m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)
theorem W6_v52 (c : Dev nD) : W6 m ρ c (Proc.devRef .tc main_v52) = val_main_v52 (F := Ideal) (m ((c : Thread nD τ).loc main_arg0)) (m ((c : Thread nD τ).loc main_arg1)) (m ((c : Thread nD τ).loc main_arg2)) (m ((c : Thread nD τ).loc main_arg3)) :=
  Stretches.layer1_v52 (W4 m ρ c) _ _ _ _ (W4_v31 m ρ c) (W4_v3 m ρ c) (W4_v7 m ρ c) (W4_v30 m ρ c) (W4_arg3 m ρ c)
theorem W6_v3 (c : Dev nD) : W6 m ρ c (Proc.devRef .tc main_v3) = val_main_v3 (F := Ideal) (m ((c : Thread nD τ).loc main_arg1)) :=
  (show after hostOps1_1 (after hostOps1 (W4 m ρ c)) (Proc.devRef .tc main_v3) = W4 m ρ c (Proc.devRef .tc main_v3) by after_results_simp).trans (W4_v3 m ρ c)
theorem W6_v7 (c : Dev nD) : W6 m ρ c (Proc.devRef .tc main_v7) = val_main_v7 (F := Ideal) (m ((c : Thread nD τ).loc main_arg1)) :=
  (show after hostOps1_1 (after hostOps1 (W4 m ρ c)) (Proc.devRef .tc main_v7) = W4 m ρ c (Proc.devRef .tc main_v7) by after_results_simp).trans (W4_v7 m ρ c)
theorem W6_v30 (c : Dev nD) : W6 m ρ c (Proc.devRef .tc main_v30) = val_main_v30 (F := Ideal) (m ((c : Thread nD τ).loc main_arg1)) :=
  (show after hostOps1_1 (after hostOps1 (W4 m ρ c)) (Proc.devRef .tc main_v30) = W4 m ρ c (Proc.devRef .tc main_v30) by after_results_simp).trans (W4_v30 m ρ c)
theorem W6_arg4 (c : Dev nD) : W6 m ρ c (Proc.devRef .tc main_arg4) = (m ((c : Thread nD τ).loc main_arg4)) :=
  (show after hostOps1_1 (after hostOps1 (W4 m ρ c)) (Proc.devRef .tc main_arg4) = W4 m ρ c (Proc.devRef .tc main_arg4) by after_results_simp).trans (W4_arg4 m ρ c)
theorem W6_arg5 (c : Dev nD) : W6 m ρ c (Proc.devRef .tc main_arg5) = (m ((c : Thread nD τ).loc main_arg5)) :=
  (show after hostOps1_1 (after hostOps1 (W4 m ρ c)) (Proc.devRef .tc main_arg5) = W4 m ρ c (Proc.devRef .tc main_arg5) by after_results_simp).trans (W4_arg5 m ρ c)
theorem W6_arg6 (c : Dev nD) : W6 m ρ c (Proc.devRef .tc main_arg6) = (m ((c : Thread nD τ).loc main_arg6)) :=
  (show after hostOps1_1 (after hostOps1 (W4 m ρ c)) (Proc.devRef .tc main_arg6) = W4 m ρ c (Proc.devRef .tc main_arg6) by after_results_simp).trans (W4_arg6 m ρ c)
theorem W6_arg7 (c : Dev nD) : W6 m ρ c (Proc.devRef .tc main_arg7) = (m ((c : Thread nD τ).loc main_arg7)) :=
  (show after hostOps1_1 (after hostOps1 (W4 m ρ c)) (Proc.devRef .tc main_arg7) = W4 m ρ c (Proc.devRef .tc main_arg7) by after_results_simp).trans (W4_arg7 m ρ c)

/-! ## The second region and the second layer -/

theorem W7_v53 (c : Dev nD) : W7 m ρ c (Proc.devRef .tc main_v53) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans (Region1.array_eq (V6 m ρ) c _ _ _ _ _ (W6_v52 m ρ c) (W6_arg4 m ρ c))
theorem W7_v3 (c : Dev nD) : W7 m ρ c (Proc.devRef .tc main_v3) = val_main_v3 (F := Ideal) (m ((c : Thread nD τ).loc main_arg1)) :=
  (W7_of_ne m ρ c main_v3 (by decide)).trans (W6_v3 m ρ c)
theorem W7_v7 (c : Dev nD) : W7 m ρ c (Proc.devRef .tc main_v7) = val_main_v7 (F := Ideal) (m ((c : Thread nD τ).loc main_arg1)) :=
  (W7_of_ne m ρ c main_v7 (by decide)).trans (W6_v7 m ρ c)
theorem W7_v30 (c : Dev nD) : W7 m ρ c (Proc.devRef .tc main_v30) = val_main_v30 (F := Ideal) (m ((c : Thread nD τ).loc main_arg1)) :=
  (W7_of_ne m ρ c main_v30 (by decide)).trans (W6_v30 m ρ c)
theorem W7_arg5 (c : Dev nD) : W7 m ρ c (Proc.devRef .tc main_arg5) = (m ((c : Thread nD τ).loc main_arg5)) :=
  (W7_of_ne m ρ c main_arg5 (by decide)).trans (W6_arg5 m ρ c)
theorem W7_arg6 (c : Dev nD) : W7 m ρ c (Proc.devRef .tc main_arg6) = (m ((c : Thread nD τ).loc main_arg6)) :=
  (W7_of_ne m ρ c main_arg6 (by decide)).trans (W6_arg6 m ρ c)
theorem W7_arg7 (c : Dev nD) : W7 m ρ c (Proc.devRef .tc main_arg7) = (m ((c : Thread nD τ).loc main_arg7)) :=
  (W7_of_ne m ρ c main_arg7 (by decide)).trans (W6_arg7 m ρ c)
theorem W9_v74 (c : Dev nD) : W9 m ρ c (Proc.devRef .tc main_v74) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stretches.layer2_v74 (W7 m ρ c) _ _ _ _ _ _ (W7_v53 m ρ c) (W7_v3 m ρ c) (W7_v7 m ρ c) (W7_v30 m ρ c) (W7_arg5 m ρ c)
theorem W9_arg6 (c : Dev nD) : W9 m ρ c (Proc.devRef .tc main_arg6) = (m ((c : Thread nD τ).loc main_arg6)) :=
  (show after hostOps2_1 (after hostOps2 (W7 m ρ c)) (Proc.devRef .tc main_arg6) = W7 m ρ c (Proc.devRef .tc main_arg6) by after_results_simp).trans (W7_arg6 m ρ c)
theorem W9_arg7 (c : Dev nD) : W9 m ρ c (Proc.devRef .tc main_arg7) = (m ((c : Thread nD τ).loc main_arg7)) :=
  (show after hostOps2_1 (after hostOps2 (W7 m ρ c)) (Proc.devRef .tc main_arg7) = W7 m ρ c (Proc.devRef .tc main_arg7) by after_results_simp).trans (W7_arg7 m ρ c)

/-! ## The last region -/

/-- After the run the result array holds the reference's result of the arguments. -/
theorem result (c : Dev nD) : W10 m ρ c (Proc.devRef .tc main_v75) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 3).trans (Region2.array_eq (V9 m ρ) c _ _ _ _ _ _ _ _ (W9_v74 m ρ c) (W9_arg6 m ρ c) (W9_arg7 m ρ c))

end Cert.KernelIdeal.Stages

end
-- ==== Proof.RefStretches.lean ====
/-
  The reference's program cut into stretches, each read as its stage functions: from any buffer contents W in which the
  buffers a stretch reads hold the stages of the arguments, the buffers it writes hold the next stages; and the buffers a
  stretch does not write keep their contents.
-/
import proofs.«145629_j10050223473071_1_alg».proof.Proof.RefRead
import Idealize.ShloMosaic.Lib.StableHlo.Run

set_option maxRecDepth 16384

noncomputable section

namespace Cert.ReferenceIdeal.Stretches

open Cert.ReferenceIdeal Cert.ReferenceIdeal.ValueP Cert.ReferenceIdeal.ReadP Idealize.ShloMosaic Idealize.ShloMosaic.StableHlo

variable {F : FTy → Type} [FloatOps F]
variable (W : Valuation τ sig (Elt F))

/-! ## The graph's edge lists, degrees and edge weights -/

/-- Source nodes of the edges, self loops appended. -/
theorem pre_v3 : after ops_a0 W (Proc.devRef .tc main_v3) = val_main_v3 (F := F) (W (Proc.devRef .tc main_arg1)) := by
  after_results_simp <;> rfl
/-- Target nodes of the edges, self loops appended. -/
theorem pre_v7 : after ops_a0 W (Proc.devRef .tc main_v7) = val_main_v7 (F := F) (W (Proc.devRef .tc main_arg1)) := by
  after_results_simp <;> rfl
/-- Which nodes have positive in-degree. -/
theorem pre_v13 : after ops_a0 W (Proc.devRef .tc main_v13) = val_main_v13 (F := F) (W (Proc.devRef .tc main_arg1)) := by
  after_results_simp <;> rfl
/-- The in-degrees' inverse square roots. -/
theorem pre_v14 : after ops_a0 W (Proc.devRef .tc main_v14) = val_main_v14 (F := F) (W (Proc.devRef .tc main_arg1)) := by
  after_results_simp <;> rfl
/-- The zero that replaces the inverse square root of a zero degree. -/
theorem pre_cst_2 : after ops_a0 W (Proc.devRef .tc main_cst_2) = val_main_cst_2 (F := F) := by
  after_results_simp <;> rfl

/-- The inverse square roots, with zero where the degree is zero. -/
theorem norm_v15 (x1 : (⟨S2x1600000, .i32⟩ : BufTy).Contents (Elt F))
    (h13 : W (Proc.devRef .tc main_v13) = val_main_v13 (F := F) x1) (h14 : W (Proc.devRef .tc main_v14) = val_main_v14 (F := F) x1)
    (hc : W (Proc.devRef .tc main_cst_2) = val_main_cst_2 (F := F)) :
    after ops_a1 W (Proc.devRef .tc main_v15) = val_main_v15 (F := F) x1 := by
  after_results_simp
  rw [h13, h14, hc]
  rfl

/-- The edge weights: the product of the two ends' inverse square roots. -/
theorem weights_v30 (x1 : (⟨S2x1600000, .i32⟩ : BufTy).Contents (Elt F))
    (h15 : W (Proc.devRef .tc main_v15) = val_main_v15 (F := F) x1) (h3 : W (Proc.devRef .tc main_v3) = val_main_v3 (F := F) x1)
    (h7 : W (Proc.devRef .tc main_v7) = val_main_v7 (F := F) x1) :
    after ops_a2 W (Proc.devRef .tc main_v30) = val_main_v30 (F := F) x1 := by
  after_results_simp
  rw [h15, h3, h7]
  rfl

/-! ## The layers -/

/-- The first dense product. -/
theorem prod1_v31 (x0 : (⟨S50000x512, .f32⟩ : BufTy).Contents (Elt F)) (x2 : (⟨S512x128, .f32⟩ : BufTy).Contents (Elt F))
    (h0 : W (Proc.devRef .tc main_arg0) = x0) (h2 : W (Proc.devRef .tc main_arg2) = x2) :
    after ops_d0 W (Proc.devRef .tc main_v31) = val_main_v31 (F := F) x0 x2 := by
  after_results_simp
  rw [h0, h2]
  rfl

/-- The first layer's activations from its dense product. -/
theorem layer1_v52 (x0 : (⟨S50000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F))
    (h31 : W (Proc.devRef .tc main_v31) = val_main_v31 (F := F) x0 x2) (h3 : W (Proc.devRef .tc main_v3) = val_main_v3 (F := F) x1)
    (h7 : W (Proc.devRef .tc main_v7) = val_main_v7 (F := F) x1) (h30 : W (Proc.devRef .tc main_v30) = val_main_v30 (F := F) x1)
    (hb : W (Proc.devRef .tc main_arg3) = x3) :
    after ops_b1 (after ops_b0 W) (Proc.devRef .tc main_v52) = val_main_v52 (F := F) x0 x1 x2 x3 := by
  after_results_simp
  rw [h31, h3, h7, h30, hb]
  rfl

/-- The second dense product. -/
theorem prod2_v53 (x0 : (⟨S50000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F))
    (x4 : (⟨S128x32, .f32⟩ : BufTy).Contents (Elt F))
    (h52 : W (Proc.devRef .tc main_v52) = val_main_v52 (F := F) x0 x1 x2 x3) (h4 : W (Proc.devRef .tc main_arg4) = x4) :
    after ops_d1 W (Proc.devRef .tc main_v53) = val_main_v53 (F := F) x0 x1 x2 x3 x4 := by
  after_results_simp
  rw [h52, h4]
  rfl

/-- The second layer's activations from its dense product. -/
theorem layer2_v74 (x0 : (⟨S50000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F))
    (x4 : (⟨S128x32, .f32⟩ : BufTy).Contents (Elt F)) (x5 : (⟨S32, .f32⟩ : BufTy).Contents (Elt F))
    (h53 : W (Proc.devRef .tc main_v53) = val_main_v53 (F := F) x0 x1 x2 x3 x4) (h3 : W (Proc.devRef .tc main_v3) = val_main_v3 (F := F) x1)
    (h7 : W (Proc.devRef .tc main_v7) = val_main_v7 (F := F) x1) (h30 : W (Proc.devRef .tc main_v30) = val_main_v30 (F := F) x1)
    (hb : W (Proc.devRef .tc main_arg5) = x5) :
    after ops_c1 (after ops_c0 W) (Proc.devRef .tc main_v74) = val_main_v74 (F := F) x0 x1 x2 x3 x4 x5 := by
  after_results_simp
  rw [h53, h3, h7, h30, hb]
  rfl

/-- The last dense product, the bias and the row softmax. -/
theorem tail_v89 (x0 : (⟨S50000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F))
    (x4 : (⟨S128x32, .f32⟩ : BufTy).Contents (Elt F)) (x5 : (⟨S32, .f32⟩ : BufTy).Contents (Elt F)) (x6 : (⟨S32x2, .f32⟩ : BufTy).Contents (Elt F)) (x7 : (⟨S2, .f32⟩ : BufTy).Contents (Elt F))
    (h74 : W (Proc.devRef .tc main_v74) = val_main_v74 (F := F) x0 x1 x2 x3 x4 x5) (h6 : W (Proc.devRef .tc main_arg6) = x6)
    (h7 : W (Proc.devRef .tc main_arg7) = x7) :
    after ops_t W (Proc.devRef .tc main_v89) = val_main_v89 (F := F) x0 x1 x2 x3 x4 x5 x6 x7 := by
  after_results_simp
  rw [h74, h6, h7]
  rfl

/-! ## What a stretch does not write, it keeps -/

/-- The source list passes the degree normalisation. -/
theorem keep_a1_v3 : after ops_a1 W (Proc.devRef .tc main_v3) = W (Proc.devRef .tc main_v3) := by
  after_results_simp
/-- The target list passes the degree normalisation. -/
theorem keep_a1_v7 : after ops_a1 W (Proc.devRef .tc main_v7) = W (Proc.devRef .tc main_v7) := by
  after_results_simp
/-- The source list passes the edge weights' computation. -/
theorem keep_a2_v3 : after ops_a2 W (Proc.devRef .tc main_v3) = W (Proc.devRef .tc main_v3) := by
  after_results_simp
/-- The target list passes the edge weights' computation. -/
theorem keep_a2_v7 : after ops_a2 W (Proc.devRef .tc main_v7) = W (Proc.devRef .tc main_v7) := by
  after_results_simp
/-- The source list passes the first product. -/
theorem keep_d0_v3 : after ops_d0 W (Proc.devRef .tc main_v3) = W (Proc.devRef .tc main_v3) := by
  after_results_simp
/-- The target list passes the first product. -/
theorem keep_d0_v7 : after ops_d0 W (Proc.devRef .tc main_v7) = W (Proc.devRef .tc main_v7) := by
  after_results_simp
/-- The edge weights pass the first product. -/
theorem keep_d0_v30 : after ops_d0 W (Proc.devRef .tc main_v30) = W (Proc.devRef .tc main_v30) := by
  after_results_simp
/-- The source list passes the first aggregation. -/
theorem keep_b0_v3 : after ops_b0 W (Proc.devRef .tc main_v3) = W (Proc.devRef .tc main_v3) := by
  after_results_simp
/-- The target list passes the first aggregation. -/
theorem keep_b0_v7 : after ops_b0 W (Proc.devRef .tc main_v7) = W (Proc.devRef .tc main_v7) := by
  after_results_simp
/-- The edge weights pass the first aggregation. -/
theorem keep_b0_v30 : after ops_b0 W (Proc.devRef .tc main_v30) = W (Proc.devRef .tc main_v30) := by
  after_results_simp
/-- The source list passes the first rectifier. -/
theorem keep_b1_v3 : after ops_b1 W (Proc.devRef .tc main_v3) = W (Proc.devRef .tc main_v3) := by
  after_results_simp
/-- The target list passes the first rectifier. -/
theorem keep_b1_v7 : after ops_b1 W (Proc.devRef .tc main_v7) = W (Proc.devRef .tc main_v7) := by
  after_results_simp
/-- The edge weights pass the first rectifier. -/
theorem keep_b1_v30 : after ops_b1 W (Proc.devRef .tc main_v30) = W (Proc.devRef .tc main_v30) := by
  after_results_simp
/-- The source list passes the second product. -/
theorem keep_d1_v3 : after ops_d1 W (Proc.devRef .tc main_v3) = W (Proc.devRef .tc main_v3) := by
  after_results_simp
/-- The target list passes the second product. -/
theorem keep_d1_v7 : after ops_d1 W (Proc.devRef .tc main_v7) = W (Proc.devRef .tc main_v7) := by
  after_results_simp
/-- The edge weights pass the second product. -/
theorem keep_d1_v30 : after ops_d1 W (Proc.devRef .tc main_v30) = W (Proc.devRef .tc main_v30) := by
  after_results_simp

end Cert.ReferenceIdeal.Stretches

end
-- ==== Proof.RefStages.lean ====
/-
  The reference's run, stretch by stretch: the buffer contents after each stretch are a fold from the launch memory, and
  walking it forward every stage buffer holds its stage function of the arguments, up to the result. With the run of
  the operation list this gives the reference's value and its frame.
-/
import proofs.«145629_j10050223473071_1_alg».proof.Proof.RefStretches
import Idealize.ShloMosaic.Lib.Pipeline.Frame

set_option maxRecDepth 16384

noncomputable section

namespace Cert.ReferenceIdeal.Stages

open Cert.ReferenceIdeal Cert.ReferenceIdeal.ValueP Cert.ReferenceIdeal.ReadP Idealize.ShloMosaic Idealize.ShloMosaic.TcCoe
open Idealize.ShloMosaic.StableHlo Idealize.SL.Sem

variable {F : FTy → Type} [FloatOps F]
variable (m : (ℓ : Loc nD τ sig) → Buf (Elt F) ℓ)

/-- The buffer contents at launch and after each stretch. -/
abbrev R0 (c : Dev nD) : Valuation τ sig (Elt F) := launchContents m c
abbrev R1 (c : Dev nD) : Valuation τ sig (Elt F) := after ops_a0 (R0 m c)
abbrev R2 (c : Dev nD) : Valuation τ sig (Elt F) := after ops_a1 (R1 m c)
abbrev R3 (c : Dev nD) : Valuation τ sig (Elt F) := after ops_a2 (R2 m c)
abbrev R4 (c : Dev nD) : Valuation τ sig (Elt F) := after ops_d0 (R3 m c)
abbrev R5 (c : Dev nD) : Valuation τ sig (Elt F) := after ops_b0 (R4 m c)
abbrev R6 (c : Dev nD) : Valuation τ sig (Elt F) := after ops_b1 (R5 m c)
abbrev R7 (c : Dev nD) : Valuation τ sig (Elt F) := after ops_d1 (R6 m c)
abbrev R8 (c : Dev nD) : Valuation τ sig (Elt F) := after ops_c0 (R7 m c)
abbrev R9 (c : Dev nD) : Valuation τ sig (Elt F) := after ops_c1 (R8 m c)
abbrev R10 (c : Dev nD) : Valuation τ sig (Elt F) := after ops_t (R9 m c)

/-- The fold over the whole list is the fold over the stretches in order. -/
theorem fold_eq (c : Dev nD) : after (ops (F := F)) (launchContents m c) = R10 m c := by
  rw [ops_eq]
  simp only [StableHlo.after_append]

/-! ## The arguments are never written -/

theorem R3_arg0 (c : Dev nD) : R3 m c (Proc.devRef .tc main_arg0) = (m ((c.tc : Thread nD τ).loc main_arg0)) := by
  after_results_simp <;> rfl
theorem R3_arg2 (c : Dev nD) : R3 m c (Proc.devRef .tc main_arg2) = (m ((c.tc : Thread nD τ).loc main_arg2)) := by
  after_results_simp <;> rfl
theorem R4_arg3 (c : Dev nD) : R4 m c (Proc.devRef .tc main_arg3) = (m ((c.tc : Thread nD τ).loc main_arg3)) := by
  after_results_simp <;> rfl
theorem R6_arg4 (c : Dev nD) : R6 m c (Proc.devRef .tc main_arg4) = (m ((c.tc : Thread nD τ).loc main_arg4)) := by
  after_results_simp <;> rfl
theorem R7_arg5 (c : Dev nD) : R7 m c (Proc.devRef .tc main_arg5) = (m ((c.tc : Thread nD τ).loc main_arg5)) := by
  after_results_simp <;> rfl
theorem R9_arg6 (c : Dev nD) : R9 m c (Proc.devRef .tc main_arg6) = (m ((c.tc : Thread nD τ).loc main_arg6)) := by
  after_results_simp <;> rfl
theorem R9_arg7 (c : Dev nD) : R9 m c (Proc.devRef .tc main_arg7) = (m ((c.tc : Thread nD τ).loc main_arg7)) := by
  after_results_simp <;> rfl
theorem R10_arg0 (c : Dev nD) : R10 m c (Proc.devRef .tc main_arg0) = (m ((c.tc : Thread nD τ).loc main_arg0)) := by
  after_results_simp <;> rfl
theorem R10_arg1 (c : Dev nD) : R10 m c (Proc.devRef .tc main_arg1) = (m ((c.tc : Thread nD τ).loc main_arg1)) := by
  after_results_simp <;> rfl
theorem R10_arg2 (c : Dev nD) : R10 m c (Proc.devRef .tc main_arg2) = (m ((c.tc : Thread nD τ).loc main_arg2)) := by
  after_results_simp <;> rfl
theorem R10_arg3 (c : Dev nD) : R10 m c (Proc.devRef .tc main_arg3) = (m ((c.tc : Thread nD τ).loc main_arg3)) := by
  after_results_simp <;> rfl
theorem R10_arg4 (c : Dev nD) : R10 m c (Proc.devRef .tc main_arg4) = (m ((c.tc : Thread nD τ).loc main_arg4)) := by
  after_results_simp <;> rfl
theorem R10_arg5 (c : Dev nD) : R10 m c (Proc.devRef .tc main_arg5) = (m ((c.tc : Thread nD τ).loc main_arg5)) := by
  after_results_simp <;> rfl
theorem R10_arg6 (c : Dev nD) : R10 m c (Proc.devRef .tc main_arg6) = (m ((c.tc : Thread nD τ).loc main_arg6)) := by
  after_results_simp <;> rfl
theorem R10_arg7 (c : Dev nD) : R10 m c (Proc.devRef .tc main_arg7) = (m ((c.tc : Thread nD τ).loc main_arg7)) := by
  after_results_simp <;> rfl

/-! ## The stages -/

theorem R2_v15 (c : Dev nD) : R2 m c (Proc.devRef .tc main_v15) = val_main_v15 (F := F) (m ((c.tc : Thread nD τ).loc main_arg1)) :=
  Stretches.norm_v15 (R1 m c) _ (Stretches.pre_v13 _) (Stretches.pre_v14 _) (Stretches.pre_cst_2 _)
theorem R2_v3 (c : Dev nD) : R2 m c (Proc.devRef .tc main_v3) = val_main_v3 (F := F) (m ((c.tc : Thread nD τ).loc main_arg1)) :=
  (Stretches.keep_a1_v3 _).trans (Stretches.pre_v3 _)
theorem R2_v7 (c : Dev nD) : R2 m c (Proc.devRef .tc main_v7) = val_main_v7 (F := F) (m ((c.tc : Thread nD τ).loc main_arg1)) :=
  (Stretches.keep_a1_v7 _).trans (Stretches.pre_v7 _)
theorem R3_v30 (c : Dev nD) : R3 m c (Proc.devRef .tc main_v30) = val_main_v30 (F := F) (m ((c.tc : Thread nD τ).loc main_arg1)) :=
  Stretches.weights_v30 (R2 m c) _ (R2_v15 m c) (R2_v3 m c) (R2_v7 m c)
theorem R3_v3 (c : Dev nD) : R3 m c (Proc.devRef .tc main_v3) = val_main_v3 (F := F) (m ((c.tc : Thread nD τ).loc main_arg1)) :=
  (Stretches.keep_a2_v3 _).trans (R2_v3 m c)
theorem R3_v7 (c : Dev nD) : R3 m c (Proc.devRef .tc main_v7) = val_main_v7 (F := F) (m ((c.tc : Thread nD τ).loc main_arg1)) :=
  (Stretches.keep_a2_v7 _).trans (R2_v7 m c)
theorem R4_v31 (c : Dev nD) : R4 m c (Proc.devRef .tc main_v31) = val_main_v31 (F := F) (m ((c.tc : Thread nD τ).loc main_arg0)) (m ((c.tc : Thread nD τ).loc main_arg2)) :=
  Stretches.prod1_v31 (R3 m c) _ _ (R3_arg0 m c) (R3_arg2 m c)
theorem R4_v3 (c : Dev nD) : R4 m c (Proc.devRef .tc main_v3) = val_main_v3 (F := F) (m ((c.tc : Thread nD τ).loc main_arg1)) :=
  (Stretches.keep_d0_v3 _).trans (R3_v3 m c)
theorem R4_v7 (c : Dev nD) : R4 m c (Proc.devRef .tc main_v7) = val_main_v7 (F := F) (m ((c.tc : Thread nD τ).loc main_arg1)) :=
  (Stretches.keep_d0_v7 _).trans (R3_v7 m c)
theorem R4_v30 (c : Dev nD) : R4 m c (Proc.devRef .tc main_v30) = val_main_v30 (F := F) (m ((c.tc : Thread nD τ).loc main_arg1)) :=
  (Stretches.keep_d0_v30 _).trans (R3_v30 m c)
theorem R6_v52 (c : Dev nD) : R6 m c (Proc.devRef .tc main_v52) = val_main_v52 (F := F) (m ((c.tc : Thread nD τ).loc main_arg0)) (m ((c.tc : Thread nD τ).loc main_arg1)) (m ((c.tc : Thread nD τ).loc main_arg2)) (m ((c.tc : Thread nD τ).loc main_arg3)) :=
  Stretches.layer1_v52 (R4 m c) _ _ _ _ (R4_v31 m c) (R4_v3 m c) (R4_v7 m c) (R4_v30 m c) (R4_arg3 m c)
theorem R6_v3 (c : Dev nD) : R6 m c (Proc.devRef .tc main_v3) = val_main_v3 (F := F) (m ((c.tc : Thread nD τ).loc main_arg1)) :=
  (Stretches.keep_b1_v3 _).trans ((Stretches.keep_b0_v3 _).trans (R4_v3 m c))
theorem R6_v7 (c : Dev nD) : R6 m c (Proc.devRef .tc main_v7) = val_main_v7 (F := F) (m ((c.tc : Thread nD τ).loc main_arg1)) :=
  (Stretches.keep_b1_v7 _).trans ((Stretches.keep_b0_v7 _).trans (R4_v7 m c))
theorem R6_v30 (c : Dev nD) : R6 m c (Proc.devRef .tc main_v30) = val_main_v30 (F := F) (m ((c.tc : Thread nD τ).loc main_arg1)) :=
  (Stretches.keep_b1_v30 _).trans ((Stretches.keep_b0_v30 _).trans (R4_v30 m c))
theorem R7_v53 (c : Dev nD) : R7 m c (Proc.devRef .tc main_v53) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  Stretches.prod2_v53 (R6 m c) _ _ _ _ _ (R6_v52 m c) (R6_arg4 m c)
theorem R7_v3 (c : Dev nD) : R7 m c (Proc.devRef .tc main_v3) = val_main_v3 (F := F) (m ((c.tc : Thread nD τ).loc main_arg1)) :=
  (Stretches.keep_d1_v3 _).trans (R6_v3 m c)
theorem R7_v7 (c : Dev nD) : R7 m c (Proc.devRef .tc main_v7) = val_main_v7 (F := F) (m ((c.tc : Thread nD τ).loc main_arg1)) :=
  (Stretches.keep_d1_v7 _).trans (R6_v7 m c)
theorem R7_v30 (c : Dev nD) : R7 m c (Proc.devRef .tc main_v30) = val_main_v30 (F := F) (m ((c.tc : Thread nD τ).loc main_arg1)) :=
  (Stretches.keep_d1_v30 _).trans (R6_v30 m c)
theorem R9_v74 (c : Dev nD) : R9 m c (Proc.devRef .tc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Stretches.layer2_v74 (R7 m c) _ _ _ _ _ _ (R7_v53 m c) (R7_v3 m c) (R7_v7 m c) (R7_v30 m c) (R7_arg5 m c)
/-- After the whole list the result buffer holds the last stage of the arguments. -/
theorem R10_v89 (c : Dev nD) : R10 m c (Proc.devRef .tc main_v89) = val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Stretches.tail_v89 (R9 m c) _ _ _ _ _ _ _ _ (R9_v74 m c) (R9_arg6 m c) (R9_arg7 m c)

/-! ## The run -/

/-- Every weakly fair execution of the reference terminates with the result at the last stage of the arguments and
    the arguments unchanged. -/
theorem run_value (ρ : Dev nD → PrngReg) :
    θ_run defs (onTc (τ := τ) (main (F := F))) ⟨m, fun _ => 0, ρ⟩ fun r => ∀ c : Dev nD,
      r.2.mem ((c.tc : Thread nD τ).loc main_v89) = val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v89).trans ((congrFun (fold_eq m c) _).trans (R10_v89 m c)),
     (h c main_arg0).trans ((congrFun (fold_eq m c) _).trans (R10_arg0 m c)),
     (h c main_arg1).trans ((congrFun (fold_eq m c) _).trans (R10_arg1 m c)),
     (h c main_arg2).trans ((congrFun (fold_eq m c) _).trans (R10_arg2 m c)),
     (h c main_arg3).trans ((congrFun (fold_eq m c) _).trans (R10_arg3 m c)),
     (h c main_arg4).trans ((congrFun (fold_eq m c) _).trans (R10_arg4 m c)),
     (h c main_arg5).trans ((congrFun (fold_eq m c) _).trans (R10_arg5 m c)),
     (h c main_arg6).trans ((congrFun (fold_eq m c) _).trans (R10_arg6 m c)),
     (h c main_arg7).trans ((congrFun (fold_eq m c) _).trans (R10_arg7 m c))⟩)
    (ValueP.run m ρ)

end Cert.ReferenceIdeal.Stages

end
-- ==== Proof.lean ====
/-
  A two-layer graph convolution with a softmax head: the kernel computes its three dense products in tiled pallas_calls
  (the last one with the bias and the row softmax in its body) and everything that follows the graph's edges — degrees,
  edge weights, gather, scale, scatter-add, bias, leaky rectifier — in the same host operations as the reference.

  Over the extended reals the change to bf16 before each product is the identity and a product into a zero accumulator
  is the plain sum over the contracted axis, so each tiled product is, row block by row block, the reference's product;
  a node's softmax depends only on its own row, so the last region's blocks are the reference's result rows. Walking the
  two programs forward stage by stage (the reference's per-operation stage functions are the common vocabulary), every
  buffer of the kernel's program holds the reference's stage of the arguments, up to the result. No law beyond
  reindexing the contracted sums is used, so the finiteness of the inputs is never opened.

  The frames of the two kernel programs are the generated ones; the reference's frame and value come from its run,
  read stretch by stretch; the ideal pass rewrote nothing, so `preserves` is `True`.
-/
import proofs.«145629_j10050223473071_1_alg».proof.Defs
import proofs.«145629_j10050223473071_1_alg».proof.Proof.Gen.Kernel
import proofs.«145629_j10050223473071_1_alg».proof.Proof.Gen.Kernel.Skeleton
import proofs.«145629_j10050223473071_1_alg».proof.Proof.Gen.Kernel.Launch
import proofs.«145629_j10050223473071_1_alg».proof.Proof.Gen.Kernel.Points
import proofs.«145629_j10050223473071_1_alg».proof.Proof.Gen.Kernel.Frame
import proofs.«145629_j10050223473071_1_alg».proof.Proof.Gen.KernelIdeal
import proofs.«145629_j10050223473071_1_alg».proof.Proof.Gen.KernelIdeal.Skeleton
import proofs.«145629_j10050223473071_1_alg».proof.Proof.Gen.KernelIdeal.Launch
import proofs.«145629_j10050223473071_1_alg».proof.Proof.Gen.KernelIdeal.Points
import proofs.«145629_j10050223473071_1_alg».proof.Proof.Gen.KernelIdeal.Frame
import proofs.«145629_j10050223473071_1_alg».proof.Proof.Gen.ReferenceIdeal
import proofs.«145629_j10050223473071_1_alg».proof.Proof.Gen.Pre_finite_inputs
import proofs.«145629_j10050223473071_1_alg».proof.Proof.RunValue
import proofs.«145629_j10050223473071_1_alg».proof.Proof.KernelStages
import proofs.«145629_j10050223473071_1_alg».proof.Proof.RefStages
import Idealize.ShloMosaic.Adequacy
import Idealize.ShloMosaic.Init

noncomputable section

namespace Cert.Proof

open Idealize.ShloMosaic Idealize.SL.Sem

/-- The kernel's program as printed runs, and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with the result dropped. -/
theorem frame_referenceIdeal : Cert.frame_ReferenceIdeal := fun m ρ _ =>
  (θ_run Cert.ReferenceIdeal.defs _ _).mono (fun _ h c => (h c).2) (Cert.ReferenceIdeal.Stages.run_value (F := Ideal) m ρ)

/-- The ideal pass rewrote no operation. -/
theorem preserves : Cert.preserves_Kernel_KernelIdeal := trivial

/-- From memories that agree on the arguments both programs run, and the kernel's result array — the last region's
    write-backs — is the reference's last stage of the arguments, which is what the reference's result buffer holds. -/
theorem algebraic : Cert.algebraic_KernelIdeal_ReferenceIdeal := by
  intro m ρ m' ρ' _ hagree
  refine ⟨fun c => Cert.KernelIdeal.Gen.W10 m ρ c (Proc.devRef .tc Cert.KernelIdeal.main_v75),
    Cert.KernelIdeal.RunValue.run_value m ρ, ?_⟩
  refine (θ_run Cert.ReferenceIdeal.defs _ _).mono (fun _ h c => ⟨(h c).1.trans ?_, (h c).2⟩)
    (Cert.ReferenceIdeal.Stages.run_value (F := Ideal) m' ρ')
  obtain ⟨e0, e1, e2, e3, e4, e5, e6, e7⟩ := hagree c
  rw [e0, e1, e2, e3, e4, e5, e6, e7]
  exact (Cert.KernelIdeal.Stages.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
